-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S10000x64 : Shape := ⟨2, ![10000, 64]⟩
abbrev S400x10000 : Shape := ⟨2, ![400, 10000]⟩
abbrev S400x64 : Shape := ⟨2, ![400, 64]⟩
abbrev S400x128 : Shape := ⟨2, ![400, 128]⟩
abbrev S400 : Shape := ⟨1, ![400]⟩
abbrev S400x1 : Shape := ⟨2, ![400, 1]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x128, .f32⟩
  | .hbm, ⟨7, _⟩ => ⟨S1x64, .f32⟩
  | .hbm, ⟨8, _⟩ => ⟨S10000x64, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S128x64, .f32⟩
  | .local _ .vmem, ⟨6, _⟩ => ⟨S1x64, .f32⟩
  | .local _ .vmem, ⟨7, _⟩ => ⟨S400x64, .f32⟩
  | .local _ .vmem, ⟨8, _⟩ => ⟨S400x64, .f32⟩
  | .local _ .vmem, ⟨9, _⟩ => ⟨S10000x128, .f32⟩
  | .local _ .vmem, ⟨10, _⟩ => ⟨S10000x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v22 : BitVec 32 := Scalar.muli arg1 c400_i32
  let v23 : Index := Scalar.indexCast v22
  let c0_14 : Index := 0#32
  ![v23.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S400x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S128_S1x128 : S128.ShapeCasts S1x128
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x64_S128x64_0_0 : ∀ a, (![0, 0] : Fin 2 → Nat) a + S128x64.size a ≤ S128x64.size a
  h_S128x64 : 0 < S128x64.numel
  h_S400x64 : 0 < S400x64.numel
  shapeCasts_S400x64_S400x64 : S400x64.ShapeCasts S400x64
  inb_S10000x64_S10000x64_0_0 : ∀ a, (![0, 0] : Fin 2 → Nat) a + S10000x64.size a ≤ S10000x64.size a
  h_S10000x64 : 0 < S10000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  reduces_S400x64_S400 : S400x64.Reduces [1] S400
  shapeCasts_S400_S400x1 : S400.ShapeCasts S400x1
  broadcasts_S400x1_S400x64 : S400x1.Broadcasts S400x64
  inb_S400x64_S400x64_0_0 : ∀ a, (![0, 0] : Fin 2 → Nat) a + S400x64.size a ≤ S400x64.size a
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  hrank0 : 0 < grid0.rank
  k0_off1_inb : ∀ i : grid0.Coords, ∀ (k0_h2 : k0_cond2 i = 1#1), ∀ a, (k0_off1 i) a + S400x64.size a ≤ S10000x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x64.size a ≤ S10000x64.size a
  hwx0_6 : ∀ i : grid0.Coords, EltTy.bits .f32 = 32 ∨ (Rect.block (s := S10000x64) S400x64.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S400x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 33
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x64, .f32⟩
  | .hbm, ⟨26, _⟩ => ⟨S10000x64, .f32⟩
  | .hbm, ⟨27, _⟩ => ⟨S10000x64, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x64, .f32⟩
  | .hbm, ⟨32, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.FrameKernel.Body.lean ====
/-
  The kernel body, run once in each of the three cases its conditionals on the grid point select.

  The grid is (phase, stripe) with 2 phases and 25 row stripes of the adjacency matrix, 50 points in
  row-major order. Case A is the first point (phase 0, stripe 0): the body fills the first scratch
  buffer with support1 = X · W1 and then, like every point of phase 0, writes one 400-row slice of the
  second scratch buffer, support2[stripe] = max (A[stripe] · support1 + b1, 0) · W2. Case B is the rest
  of phase 0 (points 1 to 24): only the slice. Case C is phase 1 (points 25 to 49): the body stores the
  whole output block, the row softmax of A[stripe] · support2 + b2, and leaves both scratch buffers alone.
  Each run is stated over arbitrary whole memrefs holding named contents and names what every buffer
  holds afterwards: the stored pieces are found by running the body and are part of the statement.
-/
import proofs.«105048_g55216099557796_cont_9to1c4b_742_5_alg».proof.Proof.Gen.Kernel.Launch
import proofs.«105048_g55216099557796_cont_9to1c4b_742_5_alg».proof.Proof.Gen.Kernel.Skeleton
import proofs.«105048_g55216099557796_cont_9to1c4b_742_5_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions, as functions of the point -/

/-- The first conditional: phase 0 and stripe 0. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0_0 : ∀ t : Fin cfg0.N, cond0_0 (grid0.coords t) ↔ t.val % 50 = 0 :=
  (by decide +kernel : ∀ t : Fin grid0.N, cond0_0 (grid0.coords t) ↔ t.val % 50 = 0)

/-- The second conditional: phase 0. -/
abbrev cond0_1 (i : grid0.Coords) : Prop := k0_cond2 i = 1#1
/-- It holds at the points before point 25. -/
theorem hcond0_1 : ∀ t : Fin cfg0.N, cond0_1 (grid0.coords t) ↔ t.val < 25 :=
  (by decide +kernel : ∀ t : Fin grid0.N, cond0_1 (grid0.coords t) ↔ t.val < 25)

/-- The third conditional: phase 1. -/
abbrev cond0_2 (i : grid0.Coords) : Prop := k0_cond3 i = 1#1
/-- It holds from point 25 on. -/
theorem hcond0_2 : ∀ t : Fin cfg0.N, cond0_2 (grid0.coords t) ↔ 25 ≤ t.val :=
  (by decide +kernel : ∀ t : Fin grid0.N, cond0_2 (grid0.coords t) ↔ 25 ≤ t.val)

/-! ## Case A: the first point -/

set_option maxHeartbeats 1000000 in
/-- At the first point the body stores support1 whole into the first scratch buffer (pieces LS0, over
    whatever it held) and one slice into the second (pieces LS1, over its contents xs1); the inputs and the
    output's buffer are as they were. -/
noncomputable def runA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : cond0_0 i) (hc1 : cond0_1 i) (hc2 : ¬cond0_2 i)
    (x0 : Vec F S10000x128 .f32) (x1 : Vec F S400x10000 .f32) (x2 : Vec F S128x128 .f32) (x3 : Vec F S1x128 .f32) (x4 : Vec F S128x64 .f32) (x5 : Vec F S1x64 .f32) (d6 : Vec F S400x64 .f32) (xs1 : Vec F S10000x64 .f32) :
    Σ' (LS0 : List (View.Piece (Elt F) S10000x128 .f32)), { LS1 : List (View.Piece (Elt F) S10000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ (∃ d, owns (c : Thread nD τ) arg9 fullShare d) ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ (∃ f, arg9.view.loc (c : Thread nD τ) ↦[arg9.view.set]{fullShare} arg9.view.writes (Elt F) f LS0) ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10) K } := by
  refine ⟨?_, ?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexact HS1

/-! ## Case B: the rest of phase 0 -/

set_option maxHeartbeats 1000000 in
/-- At points 1 to 24 the body reads the first scratch buffer (xs0, left as it was) and stores one slice into
    the second (pieces LS1, over its contents xs1); the inputs and the output's buffer are as they were. -/
noncomputable def runB (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬cond0_0 i) (hc1 : cond0_1 i) (hc2 : ¬cond0_2 i)
    (x0 : Vec F S10000x128 .f32) (x1 : Vec F S400x10000 .f32) (x2 : Vec F S128x128 .f32) (x3 : Vec F S1x128 .f32) (x4 : Vec F S128x64 .f32) (x5 : Vec F S1x64 .f32) (d6 : Vec F S400x64 .f32) (xs0 : Vec F S10000x128 .f32) (xs1 : Vec F S10000x64 .f32) :
    { LS1 : List (View.Piece (Elt F) S10000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare xs0 ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10) K } := by
  refine ⟨?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    iexact HS1

/-! ## Case C: phase 1 -/

set_option maxHeartbeats 1000000 in
/-- At points 25 to 49 the body reads the adjacency stripe, the second scratch buffer (xs1) and the bias and
    stores the output block whole (pieces LS6, over whatever its buffer held); the inputs and both scratch
    buffers are as they were. -/
noncomputable def runC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬cond0_0 i) (hc1 : ¬cond0_1 i) (hc2 : cond0_2 i)
    (x0 : Vec F S10000x128 .f32) (x1 : Vec F S400x10000 .f32) (x2 : Vec F S128x128 .f32) (x3 : Vec F S1x128 .f32) (x4 : Vec F S128x64 .f32) (x5 : Vec F S1x64 .f32) (xs0 : Vec F S10000x128 .f32) (xs1 : Vec F S10000x64 .f32) :
    { LS6 : List (View.Piece (Elt F) S400x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LS6) ∗ owns (c : Thread nD τ) arg9 fullShare xs0 ∗ owns (c : Thread nD τ) arg10 fullShare xs1) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10) K } := by
  refine ⟨?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    iexists _; isplitr; · ipureintro; exact harg10.read_unread _
    iexact HS1

end Cert.Kernel.Frame

end
-- ==== Proof.FrameKernel.Pieces.lean ====
/-
  What the body's stores read back as, in each case: the payloads of the named contents.

  A run names the pieces it stored over the raw contents of the memrefs; read back through the memref,
  a whole-buffer store is its payload, and the loads the payloads mention are the contents the memrefs held.
-/
import proofs.«105048_g55216099557796_cont_9to1c4b_742_5_alg».proof.Proof.FrameKernel.Body
import Idealize.ShloMosaic.Lib.Pipeline.Value

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.Sem

variable {F : FTy → Type} [FloatOps F]

/-- The zero offsets of a whole-buffer access, as the constant function. -/
theorem hz2 : (![0, 0] : Fin 2 → ℕ) = fun _ => 0 := by funext a; fin_cases a <;> rfl

/-- Case C's one piece is the whole output block: the softmax payload of the stripe, the second scratch
    buffer's contents and the bias row. -/
theorem readC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬cond0_0 i) (hc1 : ¬cond0_1 i) (hc2 : cond0_2 i)
    (x0 : Vec F S10000x128 .f32) (x1 : Vec F S400x10000 .f32) (x2 : Vec F S128x128 .f32) (x3 : Vec F S1x128 .f32) (x4 : Vec F S128x64 .f32) (x5 : Vec F S1x64 .f32) (xs0 : Vec F S10000x128 .f32) (xs1 : Vec F S10000x64 .f32) (f : arg8.view.ty.Contents (Elt F)) :
    arg8.view.read (Elt F) (arg8.view.writes (Elt F) f (runC c i arg2 harg2 arg3 harg3 arg4 harg4 arg5 harg5 arg6 harg6 arg7 harg7 arg8 harg8 arg9 harg9 arg10 harg10 hc0 hc1 hc2 x0 x1 x2 x3 x4 x5 xs0 xs1).1)
      = k0_pay3 x1 xs1 x5 := by
  unfold runC
  dsimp only
  rw [View.read_writes_eq_canon _ _ _ (fun y => ⟨_, List.mem_singleton_self _, View.mem_set_unit_zero hz2 inb_S400x64_S400x64_0_0 y⟩)]
  rw [View.canon_unit_zero hz2]
  simp only [View.readAt_eq_ld, harg3.read_unread, harg10.read_unread, harg7.read_unread, View.ld_unit_zero (S := S400x10000) hz2,
    View.ld_unit_zero (S := S10000x64) hz2, View.ld_unit_zero (S := S1x64) hz2]

/-- Case A's store into the first scratch buffer is whole: it reads back as X · W1 of the blocks of X and W1. -/
theorem readA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : cond0_0 i) (hc1 : cond0_1 i) (hc2 : ¬cond0_2 i)
    (x0 : Vec F S10000x128 .f32) (x1 : Vec F S400x10000 .f32) (x2 : Vec F S128x128 .f32) (x3 : Vec F S1x128 .f32) (x4 : Vec F S128x64 .f32) (x5 : Vec F S1x64 .f32) (d6 : Vec F S400x64 .f32) (xs1 : Vec F S10000x64 .f32) (f : arg9.view.ty.Contents (Elt F)) :
    arg9.view.read (Elt F) (arg9.view.writes (Elt F) f (runA c i arg2 harg2 arg3 harg3 arg4 harg4 arg5 harg5 arg6 harg6 arg7 harg7 arg8 harg8 arg9 harg9 arg10 harg10 hc0 hc1 hc2 x0 x1 x2 x3 x4 x5 d6 xs1).1) = k0_pay1 x0 x2 := by
  unfold runA
  dsimp only
  sl_unfold_words
  rw [View.read_writes_eq_canon _ _ _ (fun y => ⟨_, List.mem_singleton_self _, View.mem_set_unit_zero hz2 inb_S10000x128_S10000x128_0_0 y⟩)]
  rw [View.canon_unit_zero hz2]
  simp only [View.readAt_eq_ld, harg2.read_unread, harg4.read_unread, View.ld_unit_zero (S := S10000x128) hz2,
    View.ld_unit_zero (S := S128x128) hz2]

/-- Case A's one piece in the second scratch buffer: the stripe's 400 rows, computed from the stripe of A, the
    support1 just stored (read back from the first scratch buffer), the bias row and W2. -/
theorem piecesA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : cond0_0 i) (hc1 : cond0_1 i) (hc2 : ¬cond0_2 i)
    (x0 : Vec F S10000x128 .f32) (x1 : Vec F S400x10000 .f32) (x2 : Vec F S128x128 .f32) (x3 : Vec F S1x128 .f32) (x4 : Vec F S128x64 .f32) (x5 : Vec F S1x64 .f32) (d6 : Vec F S400x64 .f32) (xs1 : Vec F S10000x64 .f32) :
    (runA c i arg2 harg2 arg3 harg3 arg4 harg4 arg5 harg5 arg6 harg6 arg7 harg7 arg8 harg8 arg9 harg9 arg10 harg10 hc0 hc1 hc2 x0 x1 x2 x3 x4 x5 d6 xs1).2.1 = [⟨Rect.unit (s := S10000x64) (k0_off1 i) S400x64.size (k0_off1_inb i hc1), k0_pay2 x1 (k0_pay1 x0 x2) x3 x4⟩] := by
  unfold runA
  dsimp only
  sl_unfold_words
  simp only [View.readAt_eq_ld, harg2.read_unread, harg3.read_unread, harg4.read_unread, harg5.read_unread, harg6.read_unread,
    View.ld_unit_zero (S := S10000x128) hz2, View.ld_unit_zero (S := S128x128) hz2, View.ld_unit_zero (S := S400x10000) hz2,
    View.ld_unit_zero (S := S1x128) hz2, View.ld_unit_zero (S := S128x64) hz2, View.readCov_unit_zero (S := S10000x128) _ hz2]

/-- Case B's one piece in the second scratch buffer: the stripe's 400 rows, computed from the stripe of A, the
    first scratch buffer's contents, the bias row and W2. -/
theorem piecesB (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬cond0_0 i) (hc1 : cond0_1 i) (hc2 : ¬cond0_2 i)
    (x0 : Vec F S10000x128 .f32) (x1 : Vec F S400x10000 .f32) (x2 : Vec F S128x128 .f32) (x3 : Vec F S1x128 .f32) (x4 : Vec F S128x64 .f32) (x5 : Vec F S1x64 .f32) (d6 : Vec F S400x64 .f32) (xs0 : Vec F S10000x128 .f32) (xs1 : Vec F S10000x64 .f32) :
    (runB c i arg2 harg2 arg3 harg3 arg4 harg4 arg5 harg5 arg6 harg6 arg7 harg7 arg8 harg8 arg9 harg9 arg10 harg10 hc0 hc1 hc2 x0 x1 x2 x3 x4 x5 d6 xs0 xs1).1 = [⟨Rect.unit (s := S10000x64) (k0_off1 i) S400x64.size (k0_off1_inb i hc1), k0_pay2 x1 xs0 x3 x4⟩] := by
  unfold runB
  dsimp only
  simp only [View.readAt_eq_ld, harg3.read_unread, harg9.read_unread, harg5.read_unread, harg6.read_unread,
    View.ld_unit_zero (S := S10000x128) hz2, View.ld_unit_zero (S := S400x10000) hz2,
    View.ld_unit_zero (S := S1x128) hz2, View.ld_unit_zero (S := S128x64) hz2]

end Cert.Kernel.Frame

end
-- ==== Proof.FrameKernel.Data.lean ====
/-
  The proof data of the one pipelined call and the body obligation at every point.

  What the two scratch buffers hold between points is the invariant: after the first point the first one
  holds support1 = X · W1 (computed there from the blocks of X and W1), and after point n the second one
  agrees with support2 on its first 400 · n rows, support2's rows 400 s to 400 s + 399 being what the body
  computes at stripe s from the stripe's block of A, support1, the bias row and W2. From point 25 on every
  row is determined, so the body's load of the whole second buffer is support2, and what it stores into the
  output's buffer is the softmax block of the stripe. The output's buffer is idle in phase 0 (the body stores
  nothing into it and it is not written back) and is written back at every point of phase 1.
-/
import proofs.«105048_g55216099557796_cont_9to1c4b_742_5_alg».proof.Proof.FrameKernel.Pieces
import proofs.«105048_g55216099557796_cont_9to1c4b_742_5_alg».proof.Proof.Gen.Kernel.Frame
import Idealize.ShloMosaic.Lib.WritesUnit
import Idealize.ShloMosaic.Lib.ValueIdx

set_option maxRecDepth 16384

noncomputable section

namespace Cert.Kernel.Frame

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule: which windows are idle where, and when the output is written back -/

/-- No input window is ever idle. -/
theorem live_in : ∀ t : Fin cfg0.N, cfg0.idle 0 (grid0.coords t) = false ∧ cfg0.idle 1 (grid0.coords t) = false
    ∧ cfg0.idle 2 (grid0.coords t) = false ∧ cfg0.idle 3 (grid0.coords t) = false
    ∧ cfg0.idle 4 (grid0.coords t) = false ∧ cfg0.idle 5 (grid0.coords t) = false := by decide +kernel
/-- The output's window is idle exactly in phase 0. -/
theorem idle_out : ∀ t : Fin cfg0.N, cfg0.idle 6 (grid0.coords t) = decide (t.val < 25) :=
  (by decide +kernel : ∀ t : Fin grid0.N, cfg0.idle 6 (grid0.coords t) = decide (t.val < 25))
/-- The output's block is written back exactly at the points of phase 1. -/
theorem flush_out : ∀ t : Fin cfg0.N, (cfg0.win 6).flush t = decide (25 ≤ t.val) :=
  (by decide +kernel : ∀ t : Fin grid0.N, win0_6.flush t = decide (25 ≤ t.val))
/-- The stripe of a point: its index modulo 25. -/
theorem stripe_val : ∀ t : Fin cfg0.N, ((grid0.coords t) 1).val = t.val % 25 :=
  (by decide +kernel : ∀ t : Fin grid0.N, ((grid0.coords t) 1).val = t.val % 25)

/-! ## The memrefs the body is called with at a point -/

abbrev mX (t : Fin cfg0.N) : Memref sig .tc .vmem S10000x128 .f32 := win0_0.stage (cfg0.slots t 0)
abbrev mA (t : Fin cfg0.N) : Memref sig .tc .vmem S400x10000 .f32 := win0_1.stage (cfg0.slots t 1)
abbrev mW1 (t : Fin cfg0.N) : Memref sig .tc .vmem S128x128 .f32 := win0_2.stage (cfg0.slots t 2)
abbrev mB1 (t : Fin cfg0.N) : Memref sig .tc .vmem S1x128 .f32 := win0_3.stage (cfg0.slots t 3)
abbrev mW2 (t : Fin cfg0.N) : Memref sig .tc .vmem S128x64 .f32 := win0_4.stage (cfg0.slots t 4)
abbrev mB2 (t : Fin cfg0.N) : Memref sig .tc .vmem S1x64 .f32 := win0_5.stage (cfg0.slots t 5)
abbrev mO (t : Fin cfg0.N) : Memref sig .tc .vmem S400x64 .f32 := win0_6.stage (cfg0.slots t 6)
abbrev hX (t : Fin cfg0.N) : (mX t).IsWhole := hstage0_0 ((cfg0.slots t 0).cast nbuf0_0)
abbrev hA (t : Fin cfg0.N) : (mA t).IsWhole := hstage0_1 ((cfg0.slots t 1).cast nbuf0_1)
abbrev hW1 (t : Fin cfg0.N) : (mW1 t).IsWhole := hstage0_2 ((cfg0.slots t 2).cast nbuf0_2)
abbrev hB1 (t : Fin cfg0.N) : (mB1 t).IsWhole := hstage0_3 ((cfg0.slots t 3).cast nbuf0_3)
abbrev hW2 (t : Fin cfg0.N) : (mW2 t).IsWhole := hstage0_4 ((cfg0.slots t 4).cast nbuf0_4)
abbrev hB2 (t : Fin cfg0.N) : (mB2 t).IsWhole := hstage0_5 ((cfg0.slots t 5).cast nbuf0_5)
abbrev hO (t : Fin cfg0.N) : (mO t).IsWhole := hstage0_6 ((cfg0.slots t 6).cast nbuf0_6)
/-- The two scratch operands, whole scoped buffers of the kernel's own: support1's and support2's. -/
abbrev scr1 : Memref sig .tc .vmem S10000x128 .f32 := Memref.whole cc0_scratch0
abbrev scr2 : Memref sig .tc .vmem S10000x64 .f32 := Memref.whole cc0_scratch1

/-- Outside the points the region holds its two scratch buffers, each whole at some contents, and the
    generator register at some state: the scoped buffers that are no staging buffer are exactly these two. -/
theorem regionInv_eq (c : Dev nD) :
    (Pipeline.ΦA spec0 c : sProp 𝕄)
      = iprop(iprop((∃ d, owns (c : Thread nD τ) scr1 fullShare d) ∗ (∃ d, owns (c : Thread nD τ) scr2 fullShare d)) ∗ (∃ r, prngReg c r)) := by
  unfold Pipeline.ΦA
  rw [scopedRest0_eq]
  simp only [owns_whole]
  rfl

/-! ## The blocks the body reads, and what it computes from them -/

/-- The input windows' blocks at a point, at their literal types. -/
abbrev xblk (c : Dev nD) (t : Fin cfg0.N) : Vec F S10000x128 .f32 := iblk m c 0 t
abbrev ablk (c : Dev nD) (t : Fin cfg0.N) : Vec F S400x10000 .f32 := iblk m c 1 t
abbrev w1blk (c : Dev nD) (t : Fin cfg0.N) : Vec F S128x128 .f32 := iblk m c 2 t
abbrev b1blk (c : Dev nD) (t : Fin cfg0.N) : Vec F S1x128 .f32 := iblk m c 3 t
abbrev w2blk (c : Dev nD) (t : Fin cfg0.N) : Vec F S128x64 .f32 := iblk m c 4 t
abbrev b2blk (c : Dev nD) (t : Fin cfg0.N) : Vec F S1x64 .f32 := iblk m c 5 t

/-- The first point. -/
abbrev t₀ : Fin cfg0.N := ⟨0, by have : cfg0.N = 50 := N_0; omega⟩

/-- support1, as the body computes it at the first point. -/
def S1 (c : Dev nD) : Vec F S10000x128 .f32 := k0_pay1 (xblk m c t₀) (w1blk m c t₀)

/-- The 400 rows of support2 the body computes at point t (a point of phase 0). -/
def S2blk (c : Dev nD) (t : Fin cfg0.N) : Vec F S400x64 .f32 := k0_pay2 (ablk m c t) (S1 m c) (b1blk m c t) (w2blk m c t)

/-- support2 whole: row r is row r mod 400 of what point r / 400 computes. -/
def S2 (c : Dev nD) : Vec F S10000x64 .f32 := fun y =>
  S2blk m c ⟨(y 0).val / 400, by have := idx2_lt0 y; have : cfg0.N = 50 := N_0; omega⟩
    (ix2 (⟨(y 0).val % 400, Nat.mod_lt _ (by decide)⟩ : Fin 400) (⟨(y 1).val, idx2_lt1 y⟩ : Fin 64))

/-- The output block the body computes at point t (a point of phase 1). -/
def OUT (c : Dev nD) (t : Fin cfg0.N) : Vec F S400x64 .f32 := k0_pay3 (ablk m c t) (S2 m c) (b2blk m c t)

/-- The second scratch buffer agrees with support2 on its first 400 n rows. -/
def Inv2 (c : Dev nD) (n : ℕ) (d : Vec F S10000x64 .f32) : Prop := ∀ y : S10000x64.Idx, (y 0).val < 400 * n → d y = S2 m c y

theorem inv2_zero (c : Dev nD) (d : Vec F S10000x64 .f32) : Inv2 m c 0 d := fun y h => absurd h (by omega)

/-- Once every row is determined the buffer is support2, -/
theorem eq_S2_of_inv2 (c : Dev nD) (n : ℕ) (hn : 25 ≤ n) (d : Vec F S10000x64 .f32) (h : Inv2 m c n d) : d = S2 m c :=
  funext fun y => h y (by have := idx2_lt0 y; omega)

/-- and stays so. -/
theorem inv2_of_full (c : Dev nD) {n n' : ℕ} (hn : 25 ≤ n) (d : Vec F S10000x64 .f32) (h : Inv2 m c n d) : Inv2 m c n' d :=
  fun y _ => h y (by have := idx2_lt0 y; omega)

/-! ## One slice store keeps the invariant -/

/-- support2 at an index whose row lies in stripe t: the entry of what point t computes. -/
theorem S2_apply_of (c : Dev nD) (t : Fin cfg0.N) (y : S10000x64.Idx) (p : Fin 400) (j : Fin 64)
    (h0 : (y 0).val = 400 * t.val + p.val) (h1 : (y 1).val = j.val) : S2 m c y = S2blk m c t (ix2 p j) := by
  unfold S2
  have e1 : (⟨(y 0).val / 400, by have := idx2_lt0 y; have : cfg0.N = 50 := N_0; omega⟩ : Fin cfg0.N) = t :=
    Fin.ext (by show (y 0).val / 400 = t.val; have := p.isLt; omega)
  have e2 : (⟨(y 0).val % 400, Nat.mod_lt _ (by decide)⟩ : Fin 400) = p :=
    Fin.ext (by show (y 0).val % 400 = p.val; have := p.isLt; omega)
  have e3 : (⟨(y 1).val, idx2_lt1 y⟩ : Fin 64) = j := Fin.ext h1
  rw [e1, e2, e3]

/-- Writing the rows point t computes over contents that agree with support2 on the first 400 t rows gives
    contents that agree with it on the first 400 (t + 1). -/
theorem inv2_step (c : Dev nD) (t : Fin cfg0.N) (ht : t.val < 25) (d : Vec F S10000x64 .f32) (h : Inv2 m c t.val d)
    (harg : (scr2 : Memref sig .tc .vmem S10000x64 .f32).IsWhole)
    (inb : ∀ a, (k0_off1 (grid0.coords t)) a + S400x64.size a ≤ S10000x64.size a) :
    Inv2 m c (t.val + 1) (scr2.view.read (Elt F) (scr2.view.writes (Elt F) (harg.unread d)
      [⟨Rect.unit (s := S10000x64) (k0_off1 (grid0.coords t)) S400x64.size inb, S2blk m c t⟩])) := by
  intro y hy
  have hoff : k0_off1 (grid0.coords t) = ![400 * t.val, 0] := by
    rw [k0_off1_eq, stripe_val, Nat.mod_eq_of_lt ht]
  by_cases hin : 400 * t.val ≤ (y 0).val
  · have hp : (y 0).val - 400 * t.val < 400 := by omega
    rw [View.read_writes_cons_rows_of_mem scr2.view _ inb (S2blk m c t) [] y
      (ix2 (⟨(y 0).val - 400 * t.val, hp⟩ : Fin 400) (⟨(y 1).val, idx2_lt1 y⟩ : Fin 64)) hoff
      (by show (y 0).val = 400 * t.val + ((y 0).val - 400 * t.val); omega) rfl]
    exact (S2_apply_of m c t y _ _ (by show (y 0).val = 400 * t.val + ((y 0).val - 400 * t.val); omega) rfl).symm
  · rw [View.read_writes_cons_rows_of_not_mem scr2.view _ inb (S2blk m c t) [] y hoff rfl (Or.inl (by omega)),
      View.writes_nil, harg.read_unread]
    exact h y (by omega)

/-! ## The invariant between points -/

/-- Before the first point both scratch buffers hold anything; after point n - 1 the first holds support1 and the
    second agrees with support2 on its first 400 n rows; the generator register is at some state throughout. -/
def PhiS (c : Dev nD) : (n : ℕ) → n ≤ cfg0.N → sProp 𝕄
  | 0, _ => Pipeline.ΦA spec0 c
  | n + 1, _ => iprop(iprop(owns (c : Thread nD τ) scr1 fullShare (S1 m c) ∗ (∃ d, ⌜Inv2 m c (n + 1) d⌝ ∗ owns (c : Thread nD τ) scr2 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scr1 fullShare (S1 m c) ∗ (∃ d, ⌜Inv2 m c (n + 1) d⌝ ∗ owns (c : Thread nD τ) scr2 fullShare d)) ∗ (∃ r, prngReg c r)) := rfl

theorem PhiS_pos (c : Dev nD) (n : ℕ) (h : n ≤ cfg0.N) (hz : n ≠ 0) :
    PhiS m c n h = iprop(iprop(owns (c : Thread nD τ) scr1 fullShare (S1 m c) ∗ (∃ d, ⌜Inv2 m c n d⌝ ∗ owns (c : Thread nD τ) scr2 fullShare d)) ∗ (∃ r, prngReg c r)) := by
  cases n with
  | zero => exact absurd rfl hz
  | succ n => rfl

/-! ## The proof data -/

/-- The arrays as the region finds them; after the body each input's buffer holds its block and the output's
    the block of the point (consulted in phase 1 only); the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => OUT m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = OUT m c t := by dsimp only [dats]

/-- Each input's current buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body obligation -/

/-- What the body is called with at point t: the invariant, nothing owed, every window's current buffer at
    what it then holds, -/
def bodyPre (c : Dev nD) (t : Fin cfg0.N) : sProp 𝕄 :=
  iprop((dats m 0 c).Φ t.castSucc ∗ (dats m 0 c).owesAt () t.castSucc
    ∗ (∃ d, owns (c : Thread nD τ) (mX t) fullShare ((dats m 0 c).before 0 t d))
    ∗ (∃ d, owns (c : Thread nD τ) (mA t) fullShare ((dats m 0 c).before 1 t d))
    ∗ (∃ d, owns (c : Thread nD τ) (mW1 t) fullShare ((dats m 0 c).before 2 t d))
    ∗ (∃ d, owns (c : Thread nD τ) (mB1 t) fullShare ((dats m 0 c).before 3 t d))
    ∗ (∃ d, owns (c : Thread nD τ) (mW2 t) fullShare ((dats m 0 c).before 4 t d))
    ∗ (∃ d, owns (c : Thread nD τ) (mB2 t) fullShare ((dats m 0 c).before 5 t d))
    ∗ (∃ d, owns (c : Thread nD τ) (mO t) fullShare ((dats m 0 c).before 6 t d)))

/-- and what it returns: the invariant at the next point and every buffer at what the body leaves in it. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body at any point. The point's index decides the case: 0 is case A, 1 to 24 case B, 25 to 49 case C.
    In phase 0 the output's buffer is idle and is handed back as found; the slice the body stores keeps the
    second scratch buffer's agreement with support2 one stripe further. In phase 1 that buffer is support2
    whole, and the block stored into the output's buffer is the point's softmax block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt (show cfg0.N = 50 from N_0)
  rw [show (dats m 0 c).leavesExact 0 t = owns (c : Thread nD τ) (mX t) fullShare ((dats m 0 c).after 0 t) from by
    unfold Dat.leavesExact; rw [(live_in t).1], after_0]
  rw [show (dats m 0 c).leavesExact 1 t = owns (c : Thread nD τ) (mA t) fullShare ((dats m 0 c).after 1 t) from by
    unfold Dat.leavesExact; rw [(live_in t).2.1], after_1]
  rw [show (dats m 0 c).leavesExact 2 t = owns (c : Thread nD τ) (mW1 t) fullShare ((dats m 0 c).after 2 t) from by
    unfold Dat.leavesExact; rw [(live_in t).2.2.1], after_2]
  rw [show (dats m 0 c).leavesExact 3 t = owns (c : Thread nD τ) (mB1 t) fullShare ((dats m 0 c).after 3 t) from by
    unfold Dat.leavesExact; rw [(live_in t).2.2.2.1], after_3]
  rw [show (dats m 0 c).leavesExact 4 t = owns (c : Thread nD τ) (mW2 t) fullShare ((dats m 0 c).after 4 t) from by
    unfold Dat.leavesExact; rw [(live_in t).2.2.2.2.1], after_4]
  rw [show (dats m 0 c).leavesExact 5 t = owns (c : Thread nD τ) (mB2 t) fullShare ((dats m 0 c).after 5 t) from by
    unfold Dat.leavesExact; rw [(live_in t).2.2.2.2.2], after_5]
  by_cases h1 : t.val < 25
  · rw [(dats m 0 c).leavesExact_idle 6 t (by rw [idle_out]; exact decide_eq_true h1)
      (by rw [flush_out]; exact decide_eq_false (by omega))]
    have hc1 : cond0_1 (grid0.coords t) := (hcond0_1 t).mpr h1
    have hc2 : ¬cond0_2 (grid0.coords t) := fun h => absurd ((hcond0_2 t).mp h) (by omega)
    by_cases h0 : t.val = 0
    · have hc0 : cond0_0 (grid0.coords t) := (hcond0_0 t).mpr (by omega)
      have ht : t = t₀ := Fin.ext h0
      rw [Phi_castSucc m c t, PhiS_zero m c _ _ h0, regionInv_eq]
      iintro ⟨⟨⟨⟨%ds0, HS0⟩, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((runA c (grid0.coords t) _ _ _ _ _ _ _ _ _ _ _ _ _ _ _ _ _ _ hc0 hc1 hc2 (iblk m c 0 t) (iblk m c 1 t) (iblk m c 2 t) (iblk m c 3 t) (iblk m c 4 t) (iblk m c 5 t) _ ds1).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexact HS1
      iintro ⟨H0, H1, H2, H3, H4, H5, H6, ⟨%es0, HS0⟩, HS1⟩
      isplitl [HS0 HS1 Hg]
      · isplitl [HS0 HS1]
        · isplitl [HS0]
          · unfold owns; iexists _; isplitr
            swap; · iexact HS0
            ipureintro
            rw [readA]; subst ht; rfl
          · iexists _; isplitr
            swap
            · unfold owns; iexists _; isplitr
              swap; · iexact HS1
              ipureintro; rfl
            ipureintro
            rw [piecesA]; subst ht
            exact inv2_step m c t₀ h1 ds1 (inv2_zero m c ds1) _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · have hc0 : ¬cond0_0 (grid0.coords t) := fun h => absurd ((hcond0_0 t).mp h) (by omega)
      rw [Phi_castSucc m c t, PhiS_pos m c _ _ h0]
      iintro ⟨⟨⟨HS0, ⟨%ds1, %hinv, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((runB c (grid0.coords t) _ _ _ _ _ _ _ _ _ _ _ _ _ _ _ _ _ _ hc0 hc1 hc2 (iblk m c 0 t) (iblk m c 1 t) (iblk m c 2 t) (iblk m c 3 t) (iblk m c 4 t) (iblk m c 5 t) _ (S1 m c) ds1).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          · iexists _; isplitr
            swap
            · unfold owns; iexists _; isplitr
              swap; · iexact HS1
              ipureintro; rfl
            ipureintro
            rw [piecesB]
            exact inv2_step m c t h1 ds1 hinv _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have h2 : 25 ≤ t.val := by omega
    have hz : t.val ≠ 0 := by omega
    have hc0 : ¬cond0_0 (grid0.coords t) := fun h => absurd ((hcond0_0 t).mp h) (by omega)
    have hc1 : ¬cond0_1 (grid0.coords t) := fun h => h1 ((hcond0_1 t).mp h)
    have hc2 : cond0_2 (grid0.coords t) := (hcond0_2 t).mpr h2
    rw [show (dats m 0 c).leavesExact 6 t = owns (c : Thread nD τ) (mO t) fullShare ((dats m 0 c).after 6 t) from by
      unfold Dat.leavesExact; rw [idle_out, decide_eq_false h1], after_6]
    rw [Phi_castSucc m c t, PhiS_pos m c _ _ hz]
    iintro ⟨⟨⟨HS0, ⟨%ds1, %hinv, HS1⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl := eq_S2_of_inv2 m c t.val h2 ds1 hinv
    iapply ((runC c (grid0.coords t) _ _ _ _ _ _ _ _ _ _ _ _ _ _ _ _ _ _ hc0 hc1 hc2 (iblk m c 0 t) (iblk m c 1 t) (iblk m c 2 t) (iblk m c 3 t) (iblk m c 4 t) (iblk m c 5 t) (S1 m c) (S2 m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, ⟨%f6, H6⟩, HS0, HS1⟩
    isplitl [HS0 HS1 Hg]
    · isplitl [HS0 HS1]
      · isplitl [HS0]
        · iexact HS0
        · iexists _; isplitr
          swap; · iexact HS1
          ipureintro
          exact inv2_of_full m c h2 _ hinv
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro
    rw [readC]; rfl

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Frame

end
-- ==== Proof.FrameKernel.Run.lean ====
/-
  The launch: the invariant is what the region is entered with and gives back what the region ends with,
  so every weakly fair execution of the program terminates with each windowed array at what the proof data
  computes for it (an input as launched, the output its blocks as the points of phase 1 wrote them back) and
  every other unscoped buffer as the region found it. The frame claim is that post read at the arguments.
-/
import proofs.«105048_g55216099557796_cont_9to1c4b_742_5_alg».proof.Proof.FrameKernel.Data

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the region is the invariant before the first point. -/
theorem inv_in (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the region's buffers back, their contents forgotten. -/
theorem inv_out (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 50 := N_0; omega), regionInv_eq]
  iintro ⟨⟨HS0, ⟨%d, -, HS1⟩⟩, Hg⟩
  isplitl [HS0 HS1]
  · isplitl [HS0]
    · iexists _; iexact HS0
    iexists _; iexact HS1
  iexact Hg

/-- The run of the whole program, with every windowed array named after it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Frame

end
-- ==== Proof.FrameKernelIdeal.Body.lean ====
/-
  The kernel body, run once in each of the three cases its conditionals on the grid point select.

  The grid is (phase, stripe) with 2 phases and 25 row stripes of the adjacency matrix, 50 points in
  row-major order. Case A is the first point (phase 0, stripe 0): the body fills the first scratch
  buffer with support1 = X · W1 and then, like every point of phase 0, writes one 400-row slice of the
  second scratch buffer, support2[stripe] = max (A[stripe] · support1 + b1, 0) · W2. Case B is the rest
  of phase 0 (points 1 to 24): only the slice. Case C is phase 1 (points 25 to 49): the body stores the
  whole output block, the row softmax of A[stripe] · support2 + b2, and leaves both scratch buffers alone.
  Each run is stated over arbitrary whole memrefs holding named contents and names what every buffer
  holds afterwards: the stored pieces are found by running the body and are part of the statement.
-/
import proofs.«105048_g55216099557796_cont_9to1c4b_742_5_alg».proof.Proof.Gen.KernelIdeal.Launch
import proofs.«105048_g55216099557796_cont_9to1c4b_742_5_alg».proof.Proof.Gen.KernelIdeal.Skeleton
import proofs.«105048_g55216099557796_cont_9to1c4b_742_5_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions, as functions of the point -/

/-- The first conditional: phase 0 and stripe 0. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0_0 : ∀ t : Fin cfg0.N, cond0_0 (grid0.coords t) ↔ t.val % 50 = 0 :=
  (by decide +kernel : ∀ t : Fin grid0.N, cond0_0 (grid0.coords t) ↔ t.val % 50 = 0)

/-- The second conditional: phase 0. -/
abbrev cond0_1 (i : grid0.Coords) : Prop := k0_cond2 i = 1#1
/-- It holds at the points before point 25. -/
theorem hcond0_1 : ∀ t : Fin cfg0.N, cond0_1 (grid0.coords t) ↔ t.val < 25 :=
  (by decide +kernel : ∀ t : Fin grid0.N, cond0_1 (grid0.coords t) ↔ t.val < 25)

/-- The third conditional: phase 1. -/
abbrev cond0_2 (i : grid0.Coords) : Prop := k0_cond3 i = 1#1
/-- It holds from point 25 on. -/
theorem hcond0_2 : ∀ t : Fin cfg0.N, cond0_2 (grid0.coords t) ↔ 25 ≤ t.val :=
  (by decide +kernel : ∀ t : Fin grid0.N, cond0_2 (grid0.coords t) ↔ 25 ≤ t.val)

/-! ## Case A: the first point -/

set_option maxHeartbeats 1000000 in
/-- At the first point the body stores support1 whole into the first scratch buffer (pieces LS0, over
    whatever it held) and one slice into the second (pieces LS1, over its contents xs1); the inputs and the
    output's buffer are as they were. -/
noncomputable def runA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : cond0_0 i) (hc1 : cond0_1 i) (hc2 : ¬cond0_2 i)
    (x0 : Vec F S10000x128 .f32) (x1 : Vec F S400x10000 .f32) (x2 : Vec F S128x128 .f32) (x3 : Vec F S1x128 .f32) (x4 : Vec F S128x64 .f32) (x5 : Vec F S1x64 .f32) (d6 : Vec F S400x64 .f32) (xs1 : Vec F S10000x64 .f32) :
    Σ' (LS0 : List (View.Piece (Elt F) S10000x128 .f32)), { LS1 : List (View.Piece (Elt F) S10000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ (∃ d, owns (c : Thread nD τ) arg9 fullShare d) ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ (∃ f, arg9.view.loc (c : Thread nD τ) ↦[arg9.view.set]{fullShare} arg9.view.writes (Elt F) f LS0) ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10) K } := by
  refine ⟨?_, ?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexact HS1

/-! ## Case B: the rest of phase 0 -/

set_option maxHeartbeats 1000000 in
/-- At points 1 to 24 the body reads the first scratch buffer (xs0, left as it was) and stores one slice into
    the second (pieces LS1, over its contents xs1); the inputs and the output's buffer are as they were. -/
noncomputable def runB (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬cond0_0 i) (hc1 : cond0_1 i) (hc2 : ¬cond0_2 i)
    (x0 : Vec F S10000x128 .f32) (x1 : Vec F S400x10000 .f32) (x2 : Vec F S128x128 .f32) (x3 : Vec F S1x128 .f32) (x4 : Vec F S128x64 .f32) (x5 : Vec F S1x64 .f32) (d6 : Vec F S400x64 .f32) (xs0 : Vec F S10000x128 .f32) (xs1 : Vec F S10000x64 .f32) :
    { LS1 : List (View.Piece (Elt F) S10000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare xs0 ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10) K } := by
  refine ⟨?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    iexact HS1

/-! ## Case C: phase 1 -/

set_option maxHeartbeats 1000000 in
/-- At points 25 to 49 the body reads the adjacency stripe, the second scratch buffer (xs1) and the bias and
    stores the output block whole (pieces LS6, over whatever its buffer held); the inputs and both scratch
    buffers are as they were. -/
noncomputable def runC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬cond0_0 i) (hc1 : ¬cond0_1 i) (hc2 : cond0_2 i)
    (x0 : Vec F S10000x128 .f32) (x1 : Vec F S400x10000 .f32) (x2 : Vec F S128x128 .f32) (x3 : Vec F S1x128 .f32) (x4 : Vec F S128x64 .f32) (x5 : Vec F S1x64 .f32) (xs0 : Vec F S10000x128 .f32) (xs1 : Vec F S10000x64 .f32) :
    { LS6 : List (View.Piece (Elt F) S400x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LS6) ∗ owns (c : Thread nD τ) arg9 fullShare xs0 ∗ owns (c : Thread nD τ) arg10 fullShare xs1) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10) K } := by
  refine ⟨?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    iexists _; isplitr; · ipureintro; exact harg10.read_unread _
    iexact HS1

end Cert.KernelIdeal.Frame

end
-- ==== Proof.FrameKernelIdeal.Pieces.lean ====
/-
  What the body's stores read back as, in each case: the payloads of the named contents.

  A run names the pieces it stored over the raw contents of the memrefs; read back through the memref,
  a whole-buffer store is its payload, and the loads the payloads mention are the contents the memrefs held.
-/
import proofs.«105048_g55216099557796_cont_9to1c4b_742_5_alg».proof.Proof.FrameKernelIdeal.Body
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.Sem

variable {F : FTy → Type} [FloatOps F]

/-- The zero offsets of a whole-buffer access, as the constant function. -/
theorem hz2 : (![0, 0] : Fin 2 → ℕ) = fun _ => 0 := by funext a; fin_cases a <;> rfl

/-- Case C's one piece is the whole output block: the softmax payload of the stripe, the second scratch
    buffer's contents and the bias row. -/
theorem readC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬cond0_0 i) (hc1 : ¬cond0_1 i) (hc2 : cond0_2 i)
    (x0 : Vec F S10000x128 .f32) (x1 : Vec F S400x10000 .f32) (x2 : Vec F S128x128 .f32) (x3 : Vec F S1x128 .f32) (x4 : Vec F S128x64 .f32) (x5 : Vec F S1x64 .f32) (xs0 : Vec F S10000x128 .f32) (xs1 : Vec F S10000x64 .f32) (f : arg8.view.ty.Contents (Elt F)) :
    arg8.view.read (Elt F) (arg8.view.writes (Elt F) f (runC c i arg2 harg2 arg3 harg3 arg4 harg4 arg5 harg5 arg6 harg6 arg7 harg7 arg8 harg8 arg9 harg9 arg10 harg10 hc0 hc1 hc2 x0 x1 x2 x3 x4 x5 xs0 xs1).1)
      = k0_pay3 x1 xs1 x5 := by
  unfold runC
  dsimp only
  rw [View.read_writes_eq_canon _ _ _ (fun y => ⟨_, List.mem_singleton_self _, View.mem_set_unit_zero hz2 inb_S400x64_S400x64_0_0 y⟩)]
  rw [View.canon_unit_zero hz2]
  simp only [View.readAt_eq_ld, harg3.read_unread, harg10.read_unread, harg7.read_unread, View.ld_unit_zero (S := S400x10000) hz2,
    View.ld_unit_zero (S := S10000x64) hz2, View.ld_unit_zero (S := S1x64) hz2]

/-- Case A's store into the first scratch buffer is whole: it reads back as X · W1 of the blocks of X and W1. -/
theorem readA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : cond0_0 i) (hc1 : cond0_1 i) (hc2 : ¬cond0_2 i)
    (x0 : Vec F S10000x128 .f32) (x1 : Vec F S400x10000 .f32) (x2 : Vec F S128x128 .f32) (x3 : Vec F S1x128 .f32) (x4 : Vec F S128x64 .f32) (x5 : Vec F S1x64 .f32) (d6 : Vec F S400x64 .f32) (xs1 : Vec F S10000x64 .f32) (f : arg9.view.ty.Contents (Elt F)) :
    arg9.view.read (Elt F) (arg9.view.writes (Elt F) f (runA c i arg2 harg2 arg3 harg3 arg4 harg4 arg5 harg5 arg6 harg6 arg7 harg7 arg8 harg8 arg9 harg9 arg10 harg10 hc0 hc1 hc2 x0 x1 x2 x3 x4 x5 d6 xs1).1) = k0_pay1 x0 x2 := by
  unfold runA
  dsimp only
  sl_unfold_words
  rw [View.read_writes_eq_canon _ _ _ (fun y => ⟨_, List.mem_singleton_self _, View.mem_set_unit_zero hz2 inb_S10000x128_S10000x128_0_0 y⟩)]
  rw [View.canon_unit_zero hz2]
  simp only [View.readAt_eq_ld, harg2.read_unread, harg4.read_unread, View.ld_unit_zero (S := S10000x128) hz2,
    View.ld_unit_zero (S := S128x128) hz2]

/-- Case A's one piece in the second scratch buffer: the stripe's 400 rows, computed from the stripe of A, the
    support1 just stored (read back from the first scratch buffer), the bias row and W2. -/
theorem piecesA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : cond0_0 i) (hc1 : cond0_1 i) (hc2 : ¬cond0_2 i)
    (x0 : Vec F S10000x128 .f32) (x1 : Vec F S400x10000 .f32) (x2 : Vec F S128x128 .f32) (x3 : Vec F S1x128 .f32) (x4 : Vec F S128x64 .f32) (x5 : Vec F S1x64 .f32) (d6 : Vec F S400x64 .f32) (xs1 : Vec F S10000x64 .f32) :
    (runA c i arg2 harg2 arg3 harg3 arg4 harg4 arg5 harg5 arg6 harg6 arg7 harg7 arg8 harg8 arg9 harg9 arg10 harg10 hc0 hc1 hc2 x0 x1 x2 x3 x4 x5 d6 xs1).2.1 = [⟨Rect.unit (s := S10000x64) (k0_off1 i) S400x64.size (k0_off1_inb i hc1), k0_pay2 x1 (k0_pay1 x0 x2) x3 x4⟩] := by
  unfold runA
  dsimp only
  sl_unfold_words
  simp only [View.readAt_eq_ld, harg2.read_unread, harg3.read_unread, harg4.read_unread, harg5.read_unread, harg6.read_unread,
    View.ld_unit_zero (S := S10000x128) hz2, View.ld_unit_zero (S := S128x128) hz2, View.ld_unit_zero (S := S400x10000) hz2,
    View.ld_unit_zero (S := S1x128) hz2, View.ld_unit_zero (S := S128x64) hz2, View.readCov_unit_zero (S := S10000x128) _ hz2]

/-- Case B's one piece in the second scratch buffer: the stripe's 400 rows, computed from the stripe of A, the
    first scratch buffer's contents, the bias row and W2. -/
theorem piecesB (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬cond0_0 i) (hc1 : cond0_1 i) (hc2 : ¬cond0_2 i)
    (x0 : Vec F S10000x128 .f32) (x1 : Vec F S400x10000 .f32) (x2 : Vec F S128x128 .f32) (x3 : Vec F S1x128 .f32) (x4 : Vec F S128x64 .f32) (x5 : Vec F S1x64 .f32) (d6 : Vec F S400x64 .f32) (xs0 : Vec F S10000x128 .f32) (xs1 : Vec F S10000x64 .f32) :
    (runB c i arg2 harg2 arg3 harg3 arg4 harg4 arg5 harg5 arg6 harg6 arg7 harg7 arg8 harg8 arg9 harg9 arg10 harg10 hc0 hc1 hc2 x0 x1 x2 x3 x4 x5 d6 xs0 xs1).1 = [⟨Rect.unit (s := S10000x64) (k0_off1 i) S400x64.size (k0_off1_inb i hc1), k0_pay2 x1 xs0 x3 x4⟩] := by
  unfold runB
  dsimp only
  simp only [View.readAt_eq_ld, harg3.read_unread, harg9.read_unread, harg5.read_unread, harg6.read_unread,
    View.ld_unit_zero (S := S10000x128) hz2, View.ld_unit_zero (S := S400x10000) hz2,
    View.ld_unit_zero (S := S1x128) hz2, View.ld_unit_zero (S := S128x64) hz2]

end Cert.KernelIdeal.Frame

end
-- ==== Proof.FrameKernelIdeal.Data.lean ====
/-
  The proof data of the one pipelined call and the body obligation at every point.

  What the two scratch buffers hold between points is the invariant: after the first point the first one
  holds support1 = X · W1 (computed there from the blocks of X and W1), and after point n the second one
  agrees with support2 on its first 400 · n rows, support2's rows 400 s to 400 s + 399 being what the body
  computes at stripe s from the stripe's block of A, support1, the bias row and W2. From point 25 on every
  row is determined, so the body's load of the whole second buffer is support2, and what it stores into the
  output's buffer is the softmax block of the stripe. The output's buffer is idle in phase 0 (the body stores
  nothing into it and it is not written back) and is written back at every point of phase 1.
-/
import proofs.«105048_g55216099557796_cont_9to1c4b_742_5_alg».proof.Proof.FrameKernelIdeal.Pieces
import proofs.«105048_g55216099557796_cont_9to1c4b_742_5_alg».proof.Proof.Gen.KernelIdeal.Frame
import Idealize.ShloMosaic.Lib.WritesUnit
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule: which windows are idle where, and when the output is written back -/

/-- No input window is ever idle. -/
theorem live_in : ∀ t : Fin cfg0.N, cfg0.idle 0 (grid0.coords t) = false ∧ cfg0.idle 1 (grid0.coords t) = false
    ∧ cfg0.idle 2 (grid0.coords t) = false ∧ cfg0.idle 3 (grid0.coords t) = false
    ∧ cfg0.idle 4 (grid0.coords t) = false ∧ cfg0.idle 5 (grid0.coords t) = false := by decide +kernel
/-- The output's window is idle exactly in phase 0. -/
theorem idle_out : ∀ t : Fin cfg0.N, cfg0.idle 6 (grid0.coords t) = decide (t.val < 25) :=
  (by decide +kernel : ∀ t : Fin grid0.N, cfg0.idle 6 (grid0.coords t) = decide (t.val < 25))
/-- The output's block is written back exactly at the points of phase 1. -/
theorem flush_out : ∀ t : Fin cfg0.N, (cfg0.win 6).flush t = decide (25 ≤ t.val) :=
  (by decide +kernel : ∀ t : Fin grid0.N, win0_6.flush t = decide (25 ≤ t.val))
/-- The stripe of a point: its index modulo 25. -/
theorem stripe_val : ∀ t : Fin cfg0.N, ((grid0.coords t) 1).val = t.val % 25 :=
  (by decide +kernel : ∀ t : Fin grid0.N, ((grid0.coords t) 1).val = t.val % 25)

/-! ## The memrefs the body is called with at a point -/

abbrev mX (t : Fin cfg0.N) : Memref sig .tc .vmem S10000x128 .f32 := win0_0.stage (cfg0.slots t 0)
abbrev mA (t : Fin cfg0.N) : Memref sig .tc .vmem S400x10000 .f32 := win0_1.stage (cfg0.slots t 1)
abbrev mW1 (t : Fin cfg0.N) : Memref sig .tc .vmem S128x128 .f32 := win0_2.stage (cfg0.slots t 2)
abbrev mB1 (t : Fin cfg0.N) : Memref sig .tc .vmem S1x128 .f32 := win0_3.stage (cfg0.slots t 3)
abbrev mW2 (t : Fin cfg0.N) : Memref sig .tc .vmem S128x64 .f32 := win0_4.stage (cfg0.slots t 4)
abbrev mB2 (t : Fin cfg0.N) : Memref sig .tc .vmem S1x64 .f32 := win0_5.stage (cfg0.slots t 5)
abbrev mO (t : Fin cfg0.N) : Memref sig .tc .vmem S400x64 .f32 := win0_6.stage (cfg0.slots t 6)
abbrev hX (t : Fin cfg0.N) : (mX t).IsWhole := hstage0_0 ((cfg0.slots t 0).cast nbuf0_0)
abbrev hA (t : Fin cfg0.N) : (mA t).IsWhole := hstage0_1 ((cfg0.slots t 1).cast nbuf0_1)
abbrev hW1 (t : Fin cfg0.N) : (mW1 t).IsWhole := hstage0_2 ((cfg0.slots t 2).cast nbuf0_2)
abbrev hB1 (t : Fin cfg0.N) : (mB1 t).IsWhole := hstage0_3 ((cfg0.slots t 3).cast nbuf0_3)
abbrev hW2 (t : Fin cfg0.N) : (mW2 t).IsWhole := hstage0_4 ((cfg0.slots t 4).cast nbuf0_4)
abbrev hB2 (t : Fin cfg0.N) : (mB2 t).IsWhole := hstage0_5 ((cfg0.slots t 5).cast nbuf0_5)
abbrev hO (t : Fin cfg0.N) : (mO t).IsWhole := hstage0_6 ((cfg0.slots t 6).cast nbuf0_6)
/-- The two scratch operands, whole scoped buffers of the kernel's own: support1's and support2's. -/
abbrev scr1 : Memref sig .tc .vmem S10000x128 .f32 := Memref.whole cc0_scratch0
abbrev scr2 : Memref sig .tc .vmem S10000x64 .f32 := Memref.whole cc0_scratch1

/-- Outside the points the region holds its two scratch buffers, each whole at some contents, and the
    generator register at some state: the scoped buffers that are no staging buffer are exactly these two. -/
theorem regionInv_eq (c : Dev nD) :
    (Pipeline.ΦA spec0 c : sProp 𝕄)
      = iprop(iprop((∃ d, owns (c : Thread nD τ) scr1 fullShare d) ∗ (∃ d, owns (c : Thread nD τ) scr2 fullShare d)) ∗ (∃ r, prngReg c r)) := by
  unfold Pipeline.ΦA
  rw [scopedRest0_eq]
  simp only [owns_whole]
  rfl

/-! ## The blocks the body reads, and what it computes from them -/

/-- The input windows' blocks at a point, at their literal types. -/
abbrev xblk (c : Dev nD) (t : Fin cfg0.N) : Vec F S10000x128 .f32 := iblk m c 0 t
abbrev ablk (c : Dev nD) (t : Fin cfg0.N) : Vec F S400x10000 .f32 := iblk m c 1 t
abbrev w1blk (c : Dev nD) (t : Fin cfg0.N) : Vec F S128x128 .f32 := iblk m c 2 t
abbrev b1blk (c : Dev nD) (t : Fin cfg0.N) : Vec F S1x128 .f32 := iblk m c 3 t
abbrev w2blk (c : Dev nD) (t : Fin cfg0.N) : Vec F S128x64 .f32 := iblk m c 4 t
abbrev b2blk (c : Dev nD) (t : Fin cfg0.N) : Vec F S1x64 .f32 := iblk m c 5 t

/-- The first point. -/
abbrev t₀ : Fin cfg0.N := ⟨0, by have : cfg0.N = 50 := N_0; omega⟩

/-- support1, as the body computes it at the first point. -/
def S1 (c : Dev nD) : Vec F S10000x128 .f32 := k0_pay1 (xblk m c t₀) (w1blk m c t₀)

/-- The 400 rows of support2 the body computes at point t (a point of phase 0). -/
def S2blk (c : Dev nD) (t : Fin cfg0.N) : Vec F S400x64 .f32 := k0_pay2 (ablk m c t) (S1 m c) (b1blk m c t) (w2blk m c t)

/-- support2 whole: row r is row r mod 400 of what point r / 400 computes. -/
def S2 (c : Dev nD) : Vec F S10000x64 .f32 := fun y =>
  S2blk m c ⟨(y 0).val / 400, by have := idx2_lt0 y; have : cfg0.N = 50 := N_0; omega⟩
    (ix2 (⟨(y 0).val % 400, Nat.mod_lt _ (by decide)⟩ : Fin 400) (⟨(y 1).val, idx2_lt1 y⟩ : Fin 64))

/-- The output block the body computes at point t (a point of phase 1). -/
def OUT (c : Dev nD) (t : Fin cfg0.N) : Vec F S400x64 .f32 := k0_pay3 (ablk m c t) (S2 m c) (b2blk m c t)

/-- The second scratch buffer agrees with support2 on its first 400 n rows. -/
def Inv2 (c : Dev nD) (n : ℕ) (d : Vec F S10000x64 .f32) : Prop := ∀ y : S10000x64.Idx, (y 0).val < 400 * n → d y = S2 m c y

theorem inv2_zero (c : Dev nD) (d : Vec F S10000x64 .f32) : Inv2 m c 0 d := fun y h => absurd h (by omega)

/-- Once every row is determined the buffer is support2, -/
theorem eq_S2_of_inv2 (c : Dev nD) (n : ℕ) (hn : 25 ≤ n) (d : Vec F S10000x64 .f32) (h : Inv2 m c n d) : d = S2 m c :=
  funext fun y => h y (by have := idx2_lt0 y; omega)

/-- and stays so. -/
theorem inv2_of_full (c : Dev nD) {n n' : ℕ} (hn : 25 ≤ n) (d : Vec F S10000x64 .f32) (h : Inv2 m c n d) : Inv2 m c n' d :=
  fun y _ => h y (by have := idx2_lt0 y; omega)

/-! ## One slice store keeps the invariant -/

/-- support2 at an index whose row lies in stripe t: the entry of what point t computes. -/
theorem S2_apply_of (c : Dev nD) (t : Fin cfg0.N) (y : S10000x64.Idx) (p : Fin 400) (j : Fin 64)
    (h0 : (y 0).val = 400 * t.val + p.val) (h1 : (y 1).val = j.val) : S2 m c y = S2blk m c t (ix2 p j) := by
  unfold S2
  have e1 : (⟨(y 0).val / 400, by have := idx2_lt0 y; have : cfg0.N = 50 := N_0; omega⟩ : Fin cfg0.N) = t :=
    Fin.ext (by show (y 0).val / 400 = t.val; have := p.isLt; omega)
  have e2 : (⟨(y 0).val % 400, Nat.mod_lt _ (by decide)⟩ : Fin 400) = p :=
    Fin.ext (by show (y 0).val % 400 = p.val; have := p.isLt; omega)
  have e3 : (⟨(y 1).val, idx2_lt1 y⟩ : Fin 64) = j := Fin.ext h1
  rw [e1, e2, e3]

/-- Writing the rows point t computes over contents that agree with support2 on the first 400 t rows gives
    contents that agree with it on the first 400 (t + 1). -/
theorem inv2_step (c : Dev nD) (t : Fin cfg0.N) (ht : t.val < 25) (d : Vec F S10000x64 .f32) (h : Inv2 m c t.val d)
    (harg : (scr2 : Memref sig .tc .vmem S10000x64 .f32).IsWhole)
    (inb : ∀ a, (k0_off1 (grid0.coords t)) a + S400x64.size a ≤ S10000x64.size a) :
    Inv2 m c (t.val + 1) (scr2.view.read (Elt F) (scr2.view.writes (Elt F) (harg.unread d)
      [⟨Rect.unit (s := S10000x64) (k0_off1 (grid0.coords t)) S400x64.size inb, S2blk m c t⟩])) := by
  intro y hy
  have hoff : k0_off1 (grid0.coords t) = ![400 * t.val, 0] := by
    rw [k0_off1_eq, stripe_val, Nat.mod_eq_of_lt ht]
  by_cases hin : 400 * t.val ≤ (y 0).val
  · have hp : (y 0).val - 400 * t.val < 400 := by omega
    rw [View.read_writes_cons_rows_of_mem scr2.view _ inb (S2blk m c t) [] y
      (ix2 (⟨(y 0).val - 400 * t.val, hp⟩ : Fin 400) (⟨(y 1).val, idx2_lt1 y⟩ : Fin 64)) hoff
      (by show (y 0).val = 400 * t.val + ((y 0).val - 400 * t.val); omega) rfl]
    exact (S2_apply_of m c t y _ _ (by show (y 0).val = 400 * t.val + ((y 0).val - 400 * t.val); omega) rfl).symm
  · rw [View.read_writes_cons_rows_of_not_mem scr2.view _ inb (S2blk m c t) [] y hoff rfl (Or.inl (by omega)),
      View.writes_nil, harg.read_unread]
    exact h y (by omega)

/-! ## The invariant between points -/

/-- Before the first point both scratch buffers hold anything; after point n - 1 the first holds support1 and the
    second agrees with support2 on its first 400 n rows; the generator register is at some state throughout. -/
def PhiS (c : Dev nD) : (n : ℕ) → n ≤ cfg0.N → sProp 𝕄
  | 0, _ => Pipeline.ΦA spec0 c
  | n + 1, _ => iprop(iprop(owns (c : Thread nD τ) scr1 fullShare (S1 m c) ∗ (∃ d, ⌜Inv2 m c (n + 1) d⌝ ∗ owns (c : Thread nD τ) scr2 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scr1 fullShare (S1 m c) ∗ (∃ d, ⌜Inv2 m c (n + 1) d⌝ ∗ owns (c : Thread nD τ) scr2 fullShare d)) ∗ (∃ r, prngReg c r)) := rfl

theorem PhiS_pos (c : Dev nD) (n : ℕ) (h : n ≤ cfg0.N) (hz : n ≠ 0) :
    PhiS m c n h = iprop(iprop(owns (c : Thread nD τ) scr1 fullShare (S1 m c) ∗ (∃ d, ⌜Inv2 m c n d⌝ ∗ owns (c : Thread nD τ) scr2 fullShare d)) ∗ (∃ r, prngReg c r)) := by
  cases n with
  | zero => exact absurd rfl hz
  | succ n => rfl

/-! ## The proof data -/

/-- The arrays as the region finds them; after the body each input's buffer holds its block and the output's
    the block of the point (consulted in phase 1 only); the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => OUT m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = OUT m c t := by dsimp only [dats]

/-- Each input's current buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body obligation -/

/-- What the body is called with at point t: the invariant, nothing owed, every window's current buffer at
    what it then holds, -/
def bodyPre (c : Dev nD) (t : Fin cfg0.N) : sProp 𝕄 :=
  iprop((dats m 0 c).Φ t.castSucc ∗ (dats m 0 c).owesAt () t.castSucc
    ∗ (∃ d, owns (c : Thread nD τ) (mX t) fullShare ((dats m 0 c).before 0 t d))
    ∗ (∃ d, owns (c : Thread nD τ) (mA t) fullShare ((dats m 0 c).before 1 t d))
    ∗ (∃ d, owns (c : Thread nD τ) (mW1 t) fullShare ((dats m 0 c).before 2 t d))
    ∗ (∃ d, owns (c : Thread nD τ) (mB1 t) fullShare ((dats m 0 c).before 3 t d))
    ∗ (∃ d, owns (c : Thread nD τ) (mW2 t) fullShare ((dats m 0 c).before 4 t d))
    ∗ (∃ d, owns (c : Thread nD τ) (mB2 t) fullShare ((dats m 0 c).before 5 t d))
    ∗ (∃ d, owns (c : Thread nD τ) (mO t) fullShare ((dats m 0 c).before 6 t d)))

/-- and what it returns: the invariant at the next point and every buffer at what the body leaves in it. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body at any point. The point's index decides the case: 0 is case A, 1 to 24 case B, 25 to 49 case C.
    In phase 0 the output's buffer is idle and is handed back as found; the slice the body stores keeps the
    second scratch buffer's agreement with support2 one stripe further. In phase 1 that buffer is support2
    whole, and the block stored into the output's buffer is the point's softmax block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt (show cfg0.N = 50 from N_0)
  rw [show (dats m 0 c).leavesExact 0 t = owns (c : Thread nD τ) (mX t) fullShare ((dats m 0 c).after 0 t) from by
    unfold Dat.leavesExact; rw [(live_in t).1], after_0]
  rw [show (dats m 0 c).leavesExact 1 t = owns (c : Thread nD τ) (mA t) fullShare ((dats m 0 c).after 1 t) from by
    unfold Dat.leavesExact; rw [(live_in t).2.1], after_1]
  rw [show (dats m 0 c).leavesExact 2 t = owns (c : Thread nD τ) (mW1 t) fullShare ((dats m 0 c).after 2 t) from by
    unfold Dat.leavesExact; rw [(live_in t).2.2.1], after_2]
  rw [show (dats m 0 c).leavesExact 3 t = owns (c : Thread nD τ) (mB1 t) fullShare ((dats m 0 c).after 3 t) from by
    unfold Dat.leavesExact; rw [(live_in t).2.2.2.1], after_3]
  rw [show (dats m 0 c).leavesExact 4 t = owns (c : Thread nD τ) (mW2 t) fullShare ((dats m 0 c).after 4 t) from by
    unfold Dat.leavesExact; rw [(live_in t).2.2.2.2.1], after_4]
  rw [show (dats m 0 c).leavesExact 5 t = owns (c : Thread nD τ) (mB2 t) fullShare ((dats m 0 c).after 5 t) from by
    unfold Dat.leavesExact; rw [(live_in t).2.2.2.2.2], after_5]
  by_cases h1 : t.val < 25
  · rw [(dats m 0 c).leavesExact_idle 6 t (by rw [idle_out]; exact decide_eq_true h1)
      (by rw [flush_out]; exact decide_eq_false (by omega))]
    have hc1 : cond0_1 (grid0.coords t) := (hcond0_1 t).mpr h1
    have hc2 : ¬cond0_2 (grid0.coords t) := fun h => absurd ((hcond0_2 t).mp h) (by omega)
    by_cases h0 : t.val = 0
    · have hc0 : cond0_0 (grid0.coords t) := (hcond0_0 t).mpr (by omega)
      have ht : t = t₀ := Fin.ext h0
      rw [Phi_castSucc m c t, PhiS_zero m c _ _ h0, regionInv_eq]
      iintro ⟨⟨⟨⟨%ds0, HS0⟩, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((runA c (grid0.coords t) _ _ _ _ _ _ _ _ _ _ _ _ _ _ _ _ _ _ hc0 hc1 hc2 (iblk m c 0 t) (iblk m c 1 t) (iblk m c 2 t) (iblk m c 3 t) (iblk m c 4 t) (iblk m c 5 t) _ ds1).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexact HS1
      iintro ⟨H0, H1, H2, H3, H4, H5, H6, ⟨%es0, HS0⟩, HS1⟩
      isplitl [HS0 HS1 Hg]
      · isplitl [HS0 HS1]
        · isplitl [HS0]
          · unfold owns; iexists _; isplitr
            swap; · iexact HS0
            ipureintro
            rw [readA]; subst ht; rfl
          · iexists _; isplitr
            swap
            · unfold owns; iexists _; isplitr
              swap; · iexact HS1
              ipureintro; rfl
            ipureintro
            rw [piecesA]; subst ht
            exact inv2_step m c t₀ h1 ds1 (inv2_zero m c ds1) _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · have hc0 : ¬cond0_0 (grid0.coords t) := fun h => absurd ((hcond0_0 t).mp h) (by omega)
      rw [Phi_castSucc m c t, PhiS_pos m c _ _ h0]
      iintro ⟨⟨⟨HS0, ⟨%ds1, %hinv, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((runB c (grid0.coords t) _ _ _ _ _ _ _ _ _ _ _ _ _ _ _ _ _ _ hc0 hc1 hc2 (iblk m c 0 t) (iblk m c 1 t) (iblk m c 2 t) (iblk m c 3 t) (iblk m c 4 t) (iblk m c 5 t) _ (S1 m c) ds1).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          · iexists _; isplitr
            swap
            · unfold owns; iexists _; isplitr
              swap; · iexact HS1
              ipureintro; rfl
            ipureintro
            rw [piecesB]
            exact inv2_step m c t h1 ds1 hinv _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have h2 : 25 ≤ t.val := by omega
    have hz : t.val ≠ 0 := by omega
    have hc0 : ¬cond0_0 (grid0.coords t) := fun h => absurd ((hcond0_0 t).mp h) (by omega)
    have hc1 : ¬cond0_1 (grid0.coords t) := fun h => h1 ((hcond0_1 t).mp h)
    have hc2 : cond0_2 (grid0.coords t) := (hcond0_2 t).mpr h2
    rw [show (dats m 0 c).leavesExact 6 t = owns (c : Thread nD τ) (mO t) fullShare ((dats m 0 c).after 6 t) from by
      unfold Dat.leavesExact; rw [idle_out, decide_eq_false h1], after_6]
    rw [Phi_castSucc m c t, PhiS_pos m c _ _ hz]
    iintro ⟨⟨⟨HS0, ⟨%ds1, %hinv, HS1⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl := eq_S2_of_inv2 m c t.val h2 ds1 hinv
    iapply ((runC c (grid0.coords t) _ _ _ _ _ _ _ _ _ _ _ _ _ _ _ _ _ _ hc0 hc1 hc2 (iblk m c 0 t) (iblk m c 1 t) (iblk m c 2 t) (iblk m c 3 t) (iblk m c 4 t) (iblk m c 5 t) (S1 m c) (S2 m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, ⟨%f6, H6⟩, HS0, HS1⟩
    isplitl [HS0 HS1 Hg]
    · isplitl [HS0 HS1]
      · isplitl [HS0]
        · iexact HS0
        · iexists _; isplitr
          swap; · iexact HS1
          ipureintro
          exact inv2_of_full m c h2 _ hinv
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro
    rw [readC]; rfl

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Frame

end
-- ==== Proof.FrameKernelIdeal.Run.lean ====
/-
  The launch: the invariant is what the region is entered with and gives back what the region ends with,
  so every weakly fair execution of the program terminates with each windowed array at what the proof data
  computes for it (an input as launched, the output its blocks as the points of phase 1 wrote them back) and
  every other unscoped buffer as the region found it. The frame claim is that post read at the arguments.
-/
import proofs.«105048_g55216099557796_cont_9to1c4b_742_5_alg».proof.Proof.FrameKernelIdeal.Data

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the region is the invariant before the first point. -/
theorem inv_in (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the region's buffers back, their contents forgotten. -/
theorem inv_out (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 50 := N_0; omega), regionInv_eq]
  iintro ⟨⟨HS0, ⟨%d, -, HS1⟩⟩, Hg⟩
  isplitl [HS0 HS1]
  · isplitl [HS0]
    · iexists _; iexact HS0
    iexists _; iexact HS1
  iexact Hg

/-- The run of the whole program, with every windowed array named after it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Frame

end
-- ==== Proof.Spec.lean ====
/-
  The two-layer dense graph convolution, stated index by index over the extended reals.

  With A the (dense) adjacency matrix, X the node features, W1, W2 the layer weights and b1, b2 the biases:
    support1 = X · W1,   hidden = max (A · support1 + b1, 0),   support2 = hidden · W2,
    out      = softmax over each row of (A · support2 + b2),
  the softmax of a row o being exp (o j - M) / ∑ j', exp (o j' - M) with M the row's maximum
  (the fold of max from the least element ⊥). Every function here takes its matrices as functions
  of two coordinates, so the same definitions read a whole array and a block of its rows.
-/
import Idealize.ShloMosaic.PureOps.Ideal
import Idealize.ShloMosaic.Lib.ValueIdx

noncomputable section

open scoped BigOperators

namespace Gcn

open Idealize.ShloMosaic Idealize.ShloMosaic.ValueIdx

/-- A rank-2 array as a function of its two coordinates. -/
def mat {a b : ℕ} (x : (⟨2, ![a, b]⟩ : Shape).Idx → EReal) (i : Fin a) (j : Fin b) : EReal := x (ix2 i j)

/-- A rank-1 array as a function of its coordinate. -/
def vec {a : ℕ} (x : (⟨1, ![a]⟩ : Shape).Idx → EReal) (i : Fin a) : EReal := x (ix1 i)

/-- The one row of a [1, a] array as a function of the column. -/
def row {a : ℕ} (x : (⟨2, ![1, a]⟩ : Shape).Idx → EReal) (j : Fin a) : EReal := x (ix2 (0 : Fin 1) j)

/-- The matrix product: entry (i, j) is the sum over l of x i l * w l j. -/
def mm {a k b : ℕ} (x : Fin a → Fin k → EReal) (w : Fin k → Fin b → EReal) (i : Fin a) (j : Fin b) : EReal :=
  ∑ l : Fin k, x i l * w l j

/-- A graph-convolution layer before its activation: A · s + bias, the bias added along each row. -/
def conv {n k h : ℕ} (A : Fin n → Fin k → EReal) (s : Fin k → Fin h → EReal) (bias : Fin h → EReal)
    (i : Fin n) (j : Fin h) : EReal :=
  mm A s i j + bias j

/-- The rectifier. -/
def relu (x : EReal) : EReal := max x 0

/-- A row's maximum: the fold of max over its entries from the least extended real. -/
def rowMax {c : ℕ} (o : Fin c → EReal) : EReal := (Finset.univ : Finset (Fin c)).fold max ⊥ o

/-- The softmax of one row, stabilised by the row's maximum. -/
def softmaxRow {c : ℕ} (o : Fin c → EReal) (j : Fin c) : EReal :=
  Ideal.div (Ideal.exp (o j - rowMax o)) (∑ j' : Fin c, Ideal.exp (o j' - rowMax o))

/-- The first layer's activations, for the rows A has: max (A · (X · W1) + b1, 0). -/
def hidden {n k f h : ℕ} (A : Fin n → Fin k → EReal) (X : Fin k → Fin f → EReal) (W1 : Fin f → Fin h → EReal)
    (b1 : Fin h → EReal) (i : Fin n) (j : Fin h) : EReal :=
  relu (conv A (mm X W1) b1 i j)

/-- The second layer's support, for the rows A has: hidden · W2. -/
def support2 {n k f h c : ℕ} (A : Fin n → Fin k → EReal) (X : Fin k → Fin f → EReal) (W1 : Fin f → Fin h → EReal)
    (b1 : Fin h → EReal) (W2 : Fin h → Fin c → EReal) (i : Fin n) (j : Fin c) : EReal :=
  mm (hidden A X W1 b1) W2 i j

/-- The network's output for the rows Ar has, A the whole (square) adjacency matrix:
    the row softmax of Ar · support2 A + b2. -/
def out {n k f h c : ℕ} (Ar : Fin n → Fin k → EReal) (A : Fin k → Fin k → EReal) (X : Fin k → Fin f → EReal)
    (W1 : Fin f → Fin h → EReal) (b1 : Fin h → EReal) (W2 : Fin h → Fin c → EReal) (b2 : Fin c → EReal)
    (i : Fin n) (j : Fin c) : EReal :=
  softmaxRow (conv Ar (support2 A X W1 b1 W2) b2 i) j

end Gcn

end
-- ==== Proof.KPay.lean ====
import proofs.«105048_g55216099557796_cont_9to1c4b_742_5_alg».proof.Proof.Gen.KernelIdeal.Skeleton
import proofs.«105048_g55216099557796_cont_9to1c4b_742_5_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KPay

open Cert.KernelIdeal Cert.KernelIdeal.Gen Idealize.ShloMosaic Idealize.ShloMosaic.ValueIdx
open scoped BigOperators

/-! ## Small facts: the exponential at an index, the two constant words -/

/-- The exponential of a vector, read at an index, is the exponential of the entry there. -/
private theorem exp_apply {s : Shape} (a : FVec Ideal s .f32) (i : s.Idx) : exp a i = Ideal.exp (a i) := rfl

/-- The word of minus infinity is the least extended real. -/
private theorem ofBits_negInf_f32 : FloatOps.ofBits (F := Ideal) .f32 0xFF800000#32 = (⊥ : EReal) := by
  simp [Ideal.ofBits, Ideal.ieee]

/-- The scalar zero word is the extended real zero. -/
private theorem scalar_zero_f32 : (Scalar.ofBits (F := Ideal) .f32 0x00000000#32 : EReal) = 0 :=
  Ideal.ofBits_zero_f32

/-! ## A column of row values: the cast [a] -> [a, 1] and the broadcast [a, 1] -> [a, b] -/

/-- An [a] array cast to [a, 1] reads, at (p, u), the operand at p. -/
private theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] array broadcast to [a, b] reads, at (p, c), the operand's row p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A row's maximum and a row's sum: the reductions over the second axis -/

/-- The index a reduction over the second axis of an [a, b] array inserts at row p and column k is (p, k). -/
private theorem lift_row {a b : ℕ} (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- The maximum reduction over the second axis, from the word of minus infinity, read at row p:
    the fold of max from the least extended real over the row's entries. -/
private theorem rowMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec FTy.f32.bits) = 0xFF800000#32) (p : Fin a) :
    multiReduction (F := Ideal) .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  rw [ofBits_negInf_f32]
  exact congrArg (Finset.fold max ⊥ · Finset.univ) (funext fun k => congrArg src (lift_row h p k))

/-- The sum reduction over the second axis, from the zero word, read at row p: the sum of the row's entries. -/
private theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec FTy.f32.bits) = 0x00000000#32) (p : Fin a) :
    multiReduction (F := Ideal) .add [1] ⟨1, ![a]⟩ src 0x00000000#32 h hφ hacc (ix1 p)
      = ∑ k : Fin b, src (ix2 p k) := by
  refine (Ideal.multiReduction_add_single src 0x00000000#32 h hφ hacc (ix1 p)).trans ?_
  exact Finset.sum_congr rfl fun k _ => congrArg src (lift_row h p k)

/-! ## The four products, each read at an index as a sum over the contracted coordinate -/

/-! ### The product 10000 x 128 by 128 x 128 -/

private theorem lhs_xw_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
private theorem lhs_xw_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
private theorem rhs_xw_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
private theorem rhs_xw_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product into the zero splat, read at (p, j): the sum over l of x (p, l) times w (l, j). -/
private theorem matmul_xw_apply (x : FVec Ideal S10000x128 .f32) (w : FVec Ideal S128x128 .f32) (p : Fin 10000) (j : Fin 128) :
    matmul dot_S10000x128_S128x128_S10000x128_1_0_0_1_n_n none x w (constant (F := Ideal) S10000x128 .f32 0x00000000#32) (ix2 p j)
      = ∑ l : Fin 128, x (ix2 p l) * w (ix2 l j) := by
  simp only [matmul]
  rw [Ideal.matmul_constant_zero_apply, ← Equiv.sum_comp (contrEquiv1 dot_S10000x128_S128x128_S10000x128_1_0_0_1_n_n 128 rfl rfl).symm]
  refine Finset.sum_congr rfl fun l _ => ?_
  have hk := contrEquiv1_symm_val dot_S10000x128_S128x128_S10000x128_1_0_0_1_n_n 128 rfl rfl l
  have el : dot_S10000x128_S128x128_S10000x128_1_0_0_1_n_n.lhsIdx (ix2 p j) ((contrEquiv1 dot_S10000x128_S128x128_S10000x128_1_0_0_1_n_n 128 rfl rfl).symm l) = ix2 p l := funext fun c => Fin.ext (by
    match c with
    | ⟨0, _⟩ => exact lhs_xw_0 _ _
    | ⟨1, _⟩ => exact (lhs_xw_1 _ _).trans hk)
  have er : dot_S10000x128_S128x128_S10000x128_1_0_0_1_n_n.rhsIdx (ix2 p j) ((contrEquiv1 dot_S10000x128_S128x128_S10000x128_1_0_0_1_n_n 128 rfl rfl).symm l) = ix2 l j := funext fun c => Fin.ext (by
    match c with
    | ⟨0, _⟩ => exact (rhs_xw_0 _ _).trans hk
    | ⟨1, _⟩ => exact rhs_xw_1 _ _)
  rw [el, er]

/-! ### The product 400 x 10000 by 10000 x 128 -/

private theorem lhs_as1_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
private theorem lhs_as1_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
private theorem rhs_as1_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
private theorem rhs_as1_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The product into the zero splat, read at (p, j): the sum over l of x (p, l) times w (l, j). -/
private theorem matmul_as1_apply (x : FVec Ideal S400x10000 .f32) (w : FVec Ideal S10000x128 .f32) (p : Fin 400) (j : Fin 128) :
    matmul dot_S400x10000_S10000x128_S400x128_1_0_0_1_n_n none x w (constant (F := Ideal) S400x128 .f32 0x00000000#32) (ix2 p j)
      = ∑ l : Fin 10000, x (ix2 p l) * w (ix2 l j) := by
  simp only [matmul]
  rw [Ideal.matmul_constant_zero_apply, ← Equiv.sum_comp (contrEquiv1 dot_S400x10000_S10000x128_S400x128_1_0_0_1_n_n 10000 rfl rfl).symm]
  refine Finset.sum_congr rfl fun l _ => ?_
  have hk := contrEquiv1_symm_val dot_S400x10000_S10000x128_S400x128_1_0_0_1_n_n 10000 rfl rfl l
  have el : dot_S400x10000_S10000x128_S400x128_1_0_0_1_n_n.lhsIdx (ix2 p j) ((contrEquiv1 dot_S400x10000_S10000x128_S400x128_1_0_0_1_n_n 10000 rfl rfl).symm l) = ix2 p l := funext fun c => Fin.ext (by
    match c with
    | ⟨0, _⟩ => exact lhs_as1_0 _ _
    | ⟨1, _⟩ => exact (lhs_as1_1 _ _).trans hk)
  have er : dot_S400x10000_S10000x128_S400x128_1_0_0_1_n_n.rhsIdx (ix2 p j) ((contrEquiv1 dot_S400x10000_S10000x128_S400x128_1_0_0_1_n_n 10000 rfl rfl).symm l) = ix2 l j := funext fun c => Fin.ext (by
    match c with
    | ⟨0, _⟩ => exact (rhs_as1_0 _ _).trans hk
    | ⟨1, _⟩ => exact rhs_as1_1 _ _)
  rw [el, er]

/-! ### The product 400 x 128 by 128 x 64 -/

private theorem lhs_hw_0 (i : S400x64.Idx) (q : dot_S400x128_S128x64_S400x64_1_0_0_1_n_n.contr.Idx) :
    (dot_S400x128_S128x64_S400x64_1_0_0_1_n_n.lhsIdx i q 0).val = (i 0).val := by
  unfold DotDims.lhsIdx
  rw [dif_neg (show ¬(0 : Fin S400x128.rank) ∈ dot_S400x128_S128x64_S400x64_1_0_0_1_n_n.lhsBatch by decide), dif_pos (show (0 : Fin S400x128.rank) ∈ dot_S400x128_S128x64_S400x64_1_0_0_1_n_n.lhsNonContracting by decide)]
  rfl
private theorem lhs_hw_1 (i : S400x64.Idx) (q : dot_S400x128_S128x64_S400x64_1_0_0_1_n_n.contr.Idx) :
    (dot_S400x128_S128x64_S400x64_1_0_0_1_n_n.lhsIdx i q 1).val = (q ⟨0, by decide⟩).val :=
  dot_S400x128_S128x64_S400x64_1_0_0_1_n_n.lhsIdx_val_of_single rfl i q
private theorem rhs_hw_0 (i : S400x64.Idx) (q : dot_S400x128_S128x64_S400x64_1_0_0_1_n_n.contr.Idx) :
    (dot_S400x128_S128x64_S400x64_1_0_0_1_n_n.rhsIdx i q 0).val = (q ⟨0, by decide⟩).val :=
  dot_S400x128_S128x64_S400x64_1_0_0_1_n_n.rhsIdx_val_of_single rfl i q
private theorem rhs_hw_1 (i : S400x64.Idx) (q : dot_S400x128_S128x64_S400x64_1_0_0_1_n_n.contr.Idx) :
    (dot_S400x128_S128x64_S400x64_1_0_0_1_n_n.rhsIdx i q 1).val = (i 1).val := by
  unfold DotDims.rhsIdx
  rw [dif_neg (show ¬(1 : Fin S128x64.rank) ∈ dot_S400x128_S128x64_S400x64_1_0_0_1_n_n.rhsBatch by decide), dif_pos (show (1 : Fin S128x64.rank) ∈ dot_S400x128_S128x64_S400x64_1_0_0_1_n_n.rhsNonContracting by decide)]
  rfl

/-- The product into the zero splat, read at (p, j): the sum over l of x (p, l) times w (l, j). -/
private theorem matmul_hw_apply (x : FVec Ideal S400x128 .f32) (w : FVec Ideal S128x64 .f32) (p : Fin 400) (j : Fin 64) :
    matmul dot_S400x128_S128x64_S400x64_1_0_0_1_n_n none x w (constant (F := Ideal) S400x64 .f32 0x00000000#32) (ix2 p j)
      = ∑ l : Fin 128, x (ix2 p l) * w (ix2 l j) := by
  simp only [matmul]
  rw [Ideal.matmul_constant_zero_apply, ← Equiv.sum_comp (contrEquiv1 dot_S400x128_S128x64_S400x64_1_0_0_1_n_n 128 rfl rfl).symm]
  refine Finset.sum_congr rfl fun l _ => ?_
  have hk := contrEquiv1_symm_val dot_S400x128_S128x64_S400x64_1_0_0_1_n_n 128 rfl rfl l
  have el : dot_S400x128_S128x64_S400x64_1_0_0_1_n_n.lhsIdx (ix2 p j) ((contrEquiv1 dot_S400x128_S128x64_S400x64_1_0_0_1_n_n 128 rfl rfl).symm l) = ix2 p l := funext fun c => Fin.ext (by
    match c with
    | ⟨0, _⟩ => exact lhs_hw_0 _ _
    | ⟨1, _⟩ => exact (lhs_hw_1 _ _).trans hk)
  have er : dot_S400x128_S128x64_S400x64_1_0_0_1_n_n.rhsIdx (ix2 p j) ((contrEquiv1 dot_S400x128_S128x64_S400x64_1_0_0_1_n_n 128 rfl rfl).symm l) = ix2 l j := funext fun c => Fin.ext (by
    match c with
    | ⟨0, _⟩ => exact (rhs_hw_0 _ _).trans hk
    | ⟨1, _⟩ => exact rhs_hw_1 _ _)
  rw [el, er]

/-! ### The product 400 x 10000 by 10000 x 64 -/

private theorem lhs_as2_0 (i : S400x64.Idx) (q : dot_S400x10000_S10000x64_S400x64_1_0_0_1_n_n.contr.Idx) :
    (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
private theorem lhs_as2_1 (i : S400x64.Idx) (q : dot_S400x10000_S10000x64_S400x64_1_0_0_1_n_n.contr.Idx) :
    (dot_S400x10000_S10000x64_S400x64_1_0_0_1_n_n.lhsIdx i q 1).val = (q ⟨0, by decide⟩).val :=
  dot_S400x10000_S10000x64_S400x64_1_0_0_1_n_n.lhsIdx_val_of_single rfl i q
private theorem rhs_as2_0 (i : S400x64.Idx) (q : dot_S400x10000_S10000x64_S400x64_1_0_0_1_n_n.contr.Idx) :
    (dot_S400x10000_S10000x64_S400x64_1_0_0_1_n_n.rhsIdx i q 0).val = (q ⟨0, by decide⟩).val :=
  dot_S400x10000_S10000x64_S400x64_1_0_0_1_n_n.rhsIdx_val_of_single rfl i q
private theorem rhs_as2_1 (i : S400x64.Idx) (q : dot_S400x10000_S10000x64_S400x64_1_0_0_1_n_n.contr.Idx) :
    (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

/-- The product into the zero splat, read at (p, j): the sum over l of x (p, l) times w (l, j). -/
private theorem matmul_as2_apply (x : FVec Ideal S400x10000 .f32) (w : FVec Ideal S10000x64 .f32) (p : Fin 400) (j : Fin 64) :
    matmul dot_S400x10000_S10000x64_S400x64_1_0_0_1_n_n none x w (constant (F := Ideal) S400x64 .f32 0x00000000#32) (ix2 p j)
      = ∑ l : Fin 10000, x (ix2 p l) * w (ix2 l j) := by
  simp only [matmul]
  rw [Ideal.matmul_constant_zero_apply, ← Equiv.sum_comp (contrEquiv1 dot_S400x10000_S10000x64_S400x64_1_0_0_1_n_n 10000 rfl rfl).symm]
  refine Finset.sum_congr rfl fun l _ => ?_
  have hk := contrEquiv1_symm_val dot_S400x10000_S10000x64_S400x64_1_0_0_1_n_n 10000 rfl rfl l
  have el : dot_S400x10000_S10000x64_S400x64_1_0_0_1_n_n.lhsIdx (ix2 p j) ((contrEquiv1 dot_S400x10000_S10000x64_S400x64_1_0_0_1_n_n 10000 rfl rfl).symm l) = ix2 p l := funext fun c => Fin.ext (by
    match c with
    | ⟨0, _⟩ => exact lhs_as2_0 _ _
    | ⟨1, _⟩ => exact (lhs_as2_1 _ _).trans hk)
  have er : dot_S400x10000_S10000x64_S400x64_1_0_0_1_n_n.rhsIdx (ix2 p j) ((contrEquiv1 dot_S400x10000_S10000x64_S400x64_1_0_0_1_n_n 10000 rfl rfl).symm l) = ix2 l j := funext fun c => Fin.ext (by
    match c with
    | ⟨0, _⟩ => exact (rhs_as2_0 _ _).trans hk
    | ⟨1, _⟩ => exact rhs_as2_1 _ _)
  rw [el, er]

/-! ## The three payloads -/

/-- The first payload is the product of the features by the first layer's weights. -/
theorem pay1_apply (x : Vec Ideal S10000x128 .f32) (w : Vec Ideal S128x128 .f32) (i : Fin 10000) (j : Fin 128) :
    k0_pay1 (F := Ideal) x w (ix2 i j) = Gcn.mm (Gcn.mat x) (Gcn.mat w) i j := by
  unfold k0_pay1
  simp only [shapeCast_self]
  exact matmul_xw_apply x w i j

/-- The second payload is the rectified first layer, for the rows the block has, times the second layer's weights. -/
theorem pay2_apply (a : Vec Ideal S400x10000 .f32) (s1 : Vec Ideal S10000x128 .f32) (b1 : Vec Ideal S1x128 .f32)
    (w2 : Vec Ideal S128x64 .f32) (p : Fin 400) (j : Fin 64) :
    k0_pay2 (F := Ideal) a s1 b1 w2 (ix2 p j)
      = Gcn.mm (fun p h => Gcn.relu (Gcn.conv (Gcn.mat a) (Gcn.mat s1) (Gcn.row b1) p h)) (Gcn.mat w2) p j := by
  unfold k0_pay2
  simp only [shapeCast_self]
  -- the outer product is a sum over the hidden coordinate
  rw [matmul_hw_apply]
  refine Finset.sum_congr rfl fun l _ => ?_
  -- each hidden entry is the maximum of zero and the inner product's entry plus the bias
  rw [maximumf_apply, addf_apply, broadcast_apply, matmul_as1_apply, broadcastTo_1b_ab_apply, scalar_zero_f32]
  rfl

/-- The third payload is the row softmax of the second layer, for the rows the block has. -/
theorem pay3_apply (a : Vec Ideal S400x10000 .f32) (s2 : Vec Ideal S10000x64 .f32) (b2 : Vec Ideal S1x64 .f32)
    (p : Fin 400) (j : Fin 64) :
    k0_pay3 (F := Ideal) a s2 b2 (ix2 p j) = Gcn.softmaxRow (Gcn.conv (Gcn.mat a) (Gcn.mat s2) (Gcn.row b2) p) j := by
  unfold k0_pay3
  simp only [shapeCast_self]
  -- the quotient, the exponential, the difference and the two columns of row values, at (p, j)
  simp only [divf_apply, exp_apply, subf_apply, broadcastTo_a1_ab_apply, shapeCast_a_a1_apply]
  -- the denominator is the sum over the row of the exponentials
  rw [rowSum_apply]
  simp only [exp_apply, subf_apply, broadcastTo_a1_ab_apply, shapeCast_a_a1_apply]
  -- the subtracted value is the row's maximum, everywhere it occurs
  rw [rowMax_apply]
  -- each entry of the row is the product's entry plus the bias
  simp only [addf_apply, matmul_as2_apply, broadcastTo_1b_ab_apply]
  rfl

end Cert.KernelIdeal.KPay

end
-- ==== Proof.KValue.lean ====
/-
  The kernel's result array, read index by index at the ideal instance.

  Every input window's block at a point is the rows of its array the point's stripe names (the stripe of A is
  rows 400 s to 400 s + 399; the other windows are their whole arrays; the two bias rows are the reshaped
  bias vectors). So support1 as the body computes it is X · W1, the 400 rows a point of phase 0 computes are
  those rows of support2, and the block a point of phase 1 stores is those rows of the network's output. The
  output's blocks written back in phase 1 are pairwise different and cover the array: the array ends at the output.
-/
import proofs.«105048_g55216099557796_cont_9to1c4b_742_5_alg».proof.Proof.FrameKernelIdeal.Run
import proofs.«105048_g55216099557796_cont_9to1c4b_742_5_alg».proof.Proof.KPay
import Idealize.ShloMosaic.Lib.Pipeline.Value
import Idealize.ShloMosaic.Lib.StableHlo.Run
import Idealize.ShloMosaic.Lib.ValueLayout
import Idealize.ShloMosaic.Lib.ValueIdx

set_option maxRecDepth 16384

noncomputable section

namespace Cert.KernelIdeal.KValue

open Cert.KernelIdeal Cert.KernelIdeal.Gen Cert.KernelIdeal.Frame Cert.KernelIdeal.KPay
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## The arrays, as the region finds them -/

abbrev aX (c : Dev nD) : S10000x128.Idx → EReal := V m c main_arg0
abbrev aA (c : Dev nD) : S10000x10000.Idx → EReal := V m c main_arg1
abbrev aW1 (c : Dev nD) : S128x128.Idx → EReal := V m c main_arg2
abbrev aB1 (c : Dev nD) : S1x128.Idx → EReal := V m c main_v0
abbrev aW2 (c : Dev nD) : S128x64.Idx → EReal := V m c main_arg4
abbrev aB2 (c : Dev nD) : S1x64.Idx → EReal := V m c main_v1

/-- The index maps, decided over the grid: the stripe of A moves with the point's stripe, the output's block
    is the stripe in phase 1 and block 0 in phase 0, every other window is its whole array. -/
theorem idx_facts : ∀ t : Fin cfg0.N,
    win0_0.index t (0 : Fin 2) = 0 ∧ win0_0.index t (1 : Fin 2) = 0
    ∧ win0_1.index t (0 : Fin 2) = t.val % 25 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = (t.val % 25) * (t.val / 25) ∧ win0_6.index t (1 : Fin 2) = 0 :=
  (by decide +kernel : ∀ t : Fin grid0.N, _)

/-! ## The blocks are rows of the arrays -/

theorem xblk_at (c : Dev nD) (t : Fin cfg0.N) (i : Fin 10000) (l : Fin 128) : xblk m c t (ix2 i l) = aX m c (ix2 i l) := by
  obtain ⟨e0, e1, -⟩ := idx_facts t
  show V m c main_arg0 (((cfg0.win 0).blk t).view.emb (ix2 i l)) = V m c main_arg0 (ix2 i l)
  refine congrArg _ (funext fun a => Fin.ext ?_)
  match a with
  | ⟨0, _⟩ => show win0_0.index t (0 : Fin 2) * 10000 + 1 * i.val = i.val; omega
  | ⟨1, _⟩ => show win0_0.index t (1 : Fin 2) * 128 + 1 * l.val = l.val; omega

theorem ablk_at (c : Dev nD) (t : Fin cfg0.N) (p : Fin 400) (k : Fin 10000) :
    ablk m c t (ix2 p k) = aA m c (ix2 (⟨400 * (t.val % 25) + p.val, by have := p.isLt; have := Nat.mod_lt t.val (show 0 < 25 by decide); omega⟩ : Fin 10000) k) := by
  obtain ⟨-, -, e0, e1, -⟩ := idx_facts t
  show V m c main_arg1 (((cfg0.win 1).blk t).view.emb (ix2 p k)) = V m c main_arg1 (ix2 _ k)
  refine congrArg _ (funext fun a => Fin.ext ?_)
  match a with
  | ⟨0, _⟩ => show win0_1.index t (0 : Fin 2) * 400 + 1 * p.val = 400 * (t.val % 25) + p.val; omega
  | ⟨1, _⟩ => show win0_1.index t (1 : Fin 2) * 10000 + 1 * k.val = k.val; omega

theorem w1blk_at (c : Dev nD) (t : Fin cfg0.N) (i : Fin 128) (l : Fin 128) : w1blk m c t (ix2 i l) = aW1 m c (ix2 i l) := by
  obtain ⟨-, -, -, -, e0, e1, -⟩ := idx_facts t
  show V m c main_arg2 (((cfg0.win 2).blk t).view.emb (ix2 i l)) = V m c main_arg2 (ix2 i l)
  refine congrArg _ (funext fun a => Fin.ext ?_)
  match a with
  | ⟨0, _⟩ => show win0_2.index t (0 : Fin 2) * 128 + 1 * i.val = i.val; omega
  | ⟨1, _⟩ => show win0_2.index t (1 : Fin 2) * 128 + 1 * l.val = l.val; omega

theorem b1blk_at (c : Dev nD) (t : Fin cfg0.N) (l : Fin 128) : b1blk m c t (ix2 (0 : Fin 1) l) = aB1 m c (ix2 (0 : Fin 1) l) := by
  obtain ⟨-, -, -, -, -, -, e0, e1, -⟩ := idx_facts t
  show V m c main_v0 (((cfg0.win 3).blk t).view.emb (ix2 (0 : Fin 1) l)) = V m c main_v0 (ix2 (0 : Fin 1) l)
  refine congrArg _ (funext fun a => Fin.ext ?_)
  match a with
  | ⟨0, _⟩ => show win0_3.index t (0 : Fin 2) * 1 + 1 * 0 = 0; omega
  | ⟨1, _⟩ => show win0_3.index t (1 : Fin 2) * 128 + 1 * l.val = l.val; omega

theorem w2blk_at (c : Dev nD) (t : Fin cfg0.N) (i : Fin 128) (l : Fin 64) : w2blk m c t (ix2 i l) = aW2 m c (ix2 i l) := by
  obtain ⟨-, -, -, -, -, -, -, -, e0, e1, -⟩ := idx_facts t
  show V m c main_arg4 (((cfg0.win 4).blk t).view.emb (ix2 i l)) = V m c main_arg4 (ix2 i l)
  refine congrArg _ (funext fun a => Fin.ext ?_)
  match a with
  | ⟨0, _⟩ => show win0_4.index t (0 : Fin 2) * 128 + 1 * i.val = i.val; omega
  | ⟨1, _⟩ => show win0_4.index t (1 : Fin 2) * 64 + 1 * l.val = l.val; omega

theorem b2blk_at (c : Dev nD) (t : Fin cfg0.N) (l : Fin 64) : b2blk m c t (ix2 (0 : Fin 1) l) = aB2 m c (ix2 (0 : Fin 1) l) := by
  obtain ⟨-, -, -, -, -, -, -, -, -, -, e0, e1, -⟩ := idx_facts t
  show V m c main_v1 (((cfg0.win 5).blk t).view.emb (ix2 (0 : Fin 1) l)) = V m c main_v1 (ix2 (0 : Fin 1) l)
  refine congrArg _ (funext fun a => Fin.ext ?_)
  match a with
  | ⟨0, _⟩ => show win0_5.index t (0 : Fin 2) * 1 + 1 * 0 = 0; omega
  | ⟨1, _⟩ => show win0_5.index t (1 : Fin 2) * 64 + 1 * l.val = l.val; omega

/-! ## The bias rows are the reshaped bias vectors -/

/-- The two host lines before the region reshape b1 and b2 into one-row matrices. -/
theorem aB1_eq (c : Dev nD) :
    aB1 m c = shapeCast S1x128 (m ((c : Thread nD τ).loc main_arg3) : S128.Idx → EReal) shapeCasts_S128_S1x128 := by
  dsimp only [aB1, Gen.V, Gen.hostOps0]; after_results; rfl

theorem aB2_eq (c : Dev nD) :
    aB2 m c = shapeCast S1x64 (m ((c : Thread nD τ).loc main_arg5) : S64.Idx → EReal) shapeCasts_S64_S1x64 := by
  dsimp only [aB2, Gen.V, Gen.hostOps0]; after_results; rfl

theorem row_aB1 (c : Dev nD) : Gcn.row (aB1 m c) = Gcn.vec (m ((c : Thread nD τ).loc main_arg3) : S128.Idx → EReal) := by
  funext h
  unfold Gcn.row Gcn.vec
  rw [aB1_eq, shapeCast_addUnit_apply]
  exact congrArg _ (funext fun a => by match a with | ⟨0, _⟩ => rfl)

theorem row_aB2 (c : Dev nD) : Gcn.row (aB2 m c) = Gcn.vec (m ((c : Thread nD τ).loc main_arg5) : S64.Idx → EReal) := by
  funext h
  unfold Gcn.row Gcn.vec
  rw [aB2_eq, shapeCast_addUnit_apply]
  exact congrArg _ (funext fun a => by match a with | ⟨0, _⟩ => rfl)

/-! ## The arguments, as matrices of extended reals -/

abbrev mX (c : Dev nD) : Fin 10000 → Fin 128 → EReal := Gcn.mat (m ((c : Thread nD τ).loc main_arg0) : S10000x128.Idx → EReal)
abbrev mA (c : Dev nD) : Fin 10000 → Fin 10000 → EReal := Gcn.mat (m ((c : Thread nD τ).loc main_arg1) : S10000x10000.Idx → EReal)
abbrev mW1 (c : Dev nD) : Fin 128 → Fin 128 → EReal := Gcn.mat (m ((c : Thread nD τ).loc main_arg2) : S128x128.Idx → EReal)
abbrev vB1 (c : Dev nD) : Fin 128 → EReal := Gcn.vec (m ((c : Thread nD τ).loc main_arg3) : S128.Idx → EReal)
abbrev mW2 (c : Dev nD) : Fin 128 → Fin 64 → EReal := Gcn.mat (m ((c : Thread nD τ).loc main_arg4) : S128x64.Idx → EReal)
abbrev vB2 (c : Dev nD) : Fin 64 → EReal := Gcn.vec (m ((c : Thread nD τ).loc main_arg5) : S64.Idx → EReal)

theorem mat_xblk (c : Dev nD) (t : Fin cfg0.N) : Gcn.mat (xblk m c t) = mX m c := by
  funext i l; unfold Gcn.mat; rw [xblk_at]; exact congrFun (V_main_arg0 m c) _

theorem mat_w1blk (c : Dev nD) (t : Fin cfg0.N) : Gcn.mat (w1blk m c t) = mW1 m c := by
  funext i l; unfold Gcn.mat; rw [w1blk_at]; exact congrFun (V_main_arg2 m c) _

theorem mat_w2blk (c : Dev nD) (t : Fin cfg0.N) : Gcn.mat (w2blk m c t) = mW2 m c := by
  funext i l; unfold Gcn.mat; rw [w2blk_at]; exact congrFun (V_main_arg4 m c) _

theorem row_b1blk (c : Dev nD) (t : Fin cfg0.N) : Gcn.row (b1blk m c t) = vB1 m c := by
  refine Eq.trans ?_ (row_aB1 m c)
  funext l; unfold Gcn.row; exact b1blk_at m c t l

theorem row_b2blk (c : Dev nD) (t : Fin cfg0.N) : Gcn.row (b2blk m c t) = vB2 m c := by
  refine Eq.trans ?_ (row_aB2 m c)
  funext l; unfold Gcn.row; exact b2blk_at m c t l

/-- The stripe of A a point reads: rows 400 s to 400 s + 399 of A, s the point's stripe. -/
theorem mat_ablk (c : Dev nD) (t : Fin cfg0.N) (p : Fin 400) :
    Gcn.mat (ablk m c t) p = mA m c (⟨400 * (t.val % 25) + p.val, by have := p.isLt; have := Nat.mod_lt t.val (show 0 < 25 by decide); omega⟩ : Fin 10000) := by
  funext k; unfold Gcn.mat; rw [ablk_at]; exact congrFun (V_main_arg1 m c) _

/-! ## What the scratch buffers and the output block hold, as the specification -/

/-- support1 as the body computes it is X · W1. -/
theorem mat_S1 (c : Dev nD) : Gcn.mat (S1 m c) = Gcn.mm (mX m c) (mW1 m c) := by
  funext i j
  show S1 m c (ix2 i j) = _
  unfold S1
  rw [pay1_apply, mat_xblk, mat_w1blk]

/-- A convolution layer depends on its adjacency rows only through the row asked for. -/
theorem conv_congr_row {n n' k h : ℕ} (A : Fin n → Fin k → EReal) (A' : Fin n' → Fin k → EReal) (s : Fin k → Fin h → EReal)
    (b : Fin h → EReal) (i : Fin n) (i' : Fin n') (hA : A i = A' i') : Gcn.conv A s b i = Gcn.conv A' s b i' := by
  funext j; unfold Gcn.conv Gcn.mm; rw [hA]

/-- The 400 rows point t of phase 0 computes are rows 400 t to 400 t + 399 of support2. -/
theorem S2blk_at (c : Dev nD) (t : Fin cfg0.N) (ht : t.val < 25) (p : Fin 400) (j : Fin 64) :
    S2blk m c t (ix2 p j) = Gcn.support2 (mA m c) (mX m c) (mW1 m c) (vB1 m c) (mW2 m c)
      (⟨400 * t.val + p.val, by have := p.isLt; omega⟩ : Fin 10000) j := by
  unfold S2blk
  rw [pay2_apply, mat_S1, row_b1blk, mat_w2blk]
  unfold Gcn.support2 Gcn.hidden Gcn.mm
  refine Finset.sum_congr rfl fun h _ => ?_
  refine congrArg (fun z => Gcn.relu z * _) ?_
  refine congrFun (conv_congr_row _ _ _ _ p _ ?_) h
  rw [mat_ablk]
  exact congrArg (mA m c) (Fin.ext (by show 400 * (t.val % 25) + p.val = 400 * t.val + p.val; rw [Nat.mod_eq_of_lt ht]))

/-- support2 as the second scratch buffer ends holding it is the specification's. -/
theorem mat_S2 (c : Dev nD) : Gcn.mat (S2 m c) = Gcn.support2 (mA m c) (mX m c) (mW1 m c) (vB1 m c) (mW2 m c) := by
  funext r j
  show S2 m c (ix2 r j) = _
  unfold S2
  have hr : r.val / 400 < 25 := by have := r.isLt; omega
  rw [S2blk_at m c _ hr]
  exact congrArg₂ _ (Fin.ext (by show 400 * (r.val / 400) + r.val % 400 = r.val; omega)) (Fin.ext rfl)

/-- The block point t of phase 1 stores is rows 400 s to 400 s + 399 of the output, s = t - 25 its stripe. -/
theorem OUT_at (c : Dev nD) (t : Fin cfg0.N) (p : Fin 400) (j : Fin 64) :
    OUT m c t (ix2 p j) = Gcn.out (mA m c) (mA m c) (mX m c) (mW1 m c) (vB1 m c) (mW2 m c) (vB2 m c)
      (⟨400 * (t.val % 25) + p.val, by have := p.isLt; have := Nat.mod_lt t.val (show 0 < 25 by decide); omega⟩ : Fin 10000) j := by
  unfold OUT
  rw [pay3_apply, mat_S2, row_b2blk]
  unfold Gcn.out
  exact congrFun (congrArg Gcn.softmaxRow (conv_congr_row _ _ _ _ p _ (mat_ablk m c t p))) j

/-! ## The output array -/

/-- The network's output as an array over the result's shape. -/
def G (c : Dev nD) : S10000x64.Idx → EReal := fun y =>
  Gcn.out (mA m c) (mA m c) (mX m c) (mW1 m c) (vB1 m c) (mW2 m c) (vB2 m c)
    (⟨(y 0).val, idx2_lt0 y⟩ : Fin 10000) (⟨(y 1).val, idx2_lt1 y⟩ : Fin 64)

theorem flush_iff (t : Fin cfg0.N) : (cfg0.win 6).flush t = true ↔ 25 ≤ t.val := by
  rw [flush_out]; exact decide_eq_true_iff

/-- The block a point of phase 1 stores, at any index of the block. -/
theorem OUT_idx (c : Dev nD) (t : Fin cfg0.N) (y : S400x64.Idx) :
    OUT m c t y = Gcn.out (mA m c) (mA m c) (mX m c) (mW1 m c) (vB1 m c) (mW2 m c) (vB2 m c)
      (⟨400 * (t.val % 25) + (y 0).val, by have := idx2_lt0 y; have := Nat.mod_lt t.val (show 0 < 25 by decide); omega⟩ : Fin 10000)
      (⟨(y 1).val, idx2_lt1 y⟩ : Fin 64) := by
  conv_lhs => rw [eq_ix2 y]
  exact OUT_at m c t (y 0) (y 1)

/-- What a point of phase 1 writes back is its block of the output array. -/
theorem flushed_eq (c : Dev nD) (t : Fin cfg0.N) (hf : (cfg0.win 6).flush t = true) :
    (dats m 0 c).flushed 6 t = ((cfg0.win 6).blk t).view.read (Elt Ideal) (G m c) := by
  have h2 : 25 ≤ t.val := (flush_iff t).mp hf
  have hN : t.val < 50 := lt_of_lt_of_eq t.isLt (show cfg0.N = 50 from N_0)
  obtain ⟨-, -, -, -, -, -, -, -, -, -, -, -, e0, e1⟩ := idx_facts t
  have e0' : win0_6.index t (0 : Fin 2) = t.val % 25 := by
    rw [e0, show t.val / 25 = 1 by omega, Nat.mul_one]
  show (cfg0.win 6).cut (grid0.coords t) ((dats m 0 c).after 6 t) = _
  rw [after_6]
  funext y
  show OUT m c t y = G m c (((cfg0.win 6).blk t).view.emb y)
  rw [OUT_idx]
  unfold G
  refine congrArg₂ _ (Fin.ext ?_) (Fin.ext ?_)
  · show 400 * (t.val % 25) + (y 0).val = win0_6.index t (0 : Fin 2) * 400 + 1 * (y 0).val
    rw [e0']; omega
  · show (y 1).val = win0_6.index t (1 : Fin 2) * 64 + 1 * (y 1).val
    rw [e1]; omega

/-- An index of the array is in a point's block iff each coordinate is in the block's range on its axis. -/
theorem mem_blk (t : Fin cfg0.N) (i : S10000x64.Idx) :
    i ∈ ((cfg0.win 6).blk t).view.set ↔ ∀ a : Fin 2, win0_6.index t a * S400x64.size a ≤ (i a).val ∧ (i a).val < win0_6.index t a * S400x64.size a + S400x64.size a := by
  show i ∈ ((View.whole main_v2).slice (win0_6.rect t)).set ↔ _
  rw [View.set_slice_whole, Rect.mem_set_unit]
  exact Iff.rfl

/-- Every row of the array is in the block of the phase-1 point of its stripe. -/
theorem cover (i : S10000x64.Idx) : ∃ t : Fin cfg0.N, (cfg0.win 6).flush t = true ∧ i ∈ ((cfg0.win 6).blk t).view.set := by
  have hi0 := idx2_lt0 i
  have hi1 := idx2_lt1 i
  have hN : cfg0.N = 50 := N_0
  have hN' : grid0.N = 50 := N_0
  have hq : (i 0).val / 400 < 25 := by omega
  refine ⟨⟨25 + (i 0).val / 400, by omega⟩, (flush_iff _).mpr (by show 25 ≤ 25 + (i 0).val / 400; omega), ?_⟩
  rw [mem_blk]
  obtain ⟨-, -, -, -, -, -, -, -, -, -, -, -, e0, e1⟩ := idx_facts ⟨25 + (i 0).val / 400, by omega⟩
  have e0' : win0_6.index ⟨25 + (i 0).val / 400, by omega⟩ (0 : Fin 2) = (i 0).val / 400 := by
    rw [e0]
    show ((25 + (i 0).val / 400) % 25) * ((25 + (i 0).val / 400) / 25) = (i 0).val / 400
    rw [show (25 + (i 0).val / 400) / 25 = 1 by omega, show (25 + (i 0).val / 400) % 25 = (i 0).val / 400 by omega, Nat.mul_one]
  intro a
  match a with
  | ⟨0, _⟩ =>
    show win0_6.index _ (0 : Fin 2) * 400 ≤ (i 0).val ∧ (i 0).val < win0_6.index _ (0 : Fin 2) * 400 + 400
    rw [e0']; omega
  | ⟨1, _⟩ =>
    show win0_6.index _ (1 : Fin 2) * 64 ≤ (i 1).val ∧ (i 1).val < win0_6.index _ (1 : Fin 2) * 64 + 64
    rw [e1]; omega

/-- The result array after the run is the network's output. -/
theorem final (c : Dev nD) : (dats m 0 c).arrAt 6 cfg0.N = G m c :=
  (dats m 0 c).arrAt_eq_of_cover 6 (G m c) (fun t hf => flushed_eq m c t hf) cover

/-- The run, read: the result at the output array, the arguments unchanged. -/
theorem run : θ_run defs (onTc (τ := τ) (main (F := Ideal))) ⟨m, fun _ => 0, ρ⟩ fun r => ∀ c : Dev nD,
      r.2.mem ((c.tc : Thread nD τ).loc main_v2) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.KernelIdeal.KValue

end
-- ==== Proof.RefValue.lean ====
import proofs.«105048_g55216099557796_cont_9to1c4b_742_5_alg».proof.Defs
import proofs.«105048_g55216099557796_cont_9to1c4b_742_5_alg».proof.Proof.Gen.ReferenceIdeal.Run
import proofs.«105048_g55216099557796_cont_9to1c4b_742_5_alg».proof.Proof.Gen.ReferenceIdeal.Read
import proofs.«105048_g55216099557796_cont_9to1c4b_742_5_alg».proof.Proof.Spec
import Idealize.ShloMosaic.PureOps.Ideal.Laws
import Idealize.ShloMosaic.PureOps.Reduce
import Idealize.ShloMosaic.Lib.ValueIdx

noncomputable section

namespace Cert.ReferenceIdeal.RefValue

open Cert.ReferenceIdeal Cert.ReferenceIdeal.Gen Idealize.ShloMosaic Idealize.ShloMosaic.ValueIdx

/-! The reference program read stage by stage at an index. Each lemma names the value one stage holds at given
    coordinates by the corresponding function of the index-level specification. -/

section

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-- The pattern of minus infinity denotes the least extended real. -/
theorem ofBits_negInf : Ideal.ofBits .f32 0xFF800000#32 = (⊥ : EReal) := by
  simp [Ideal.ofBits, Ideal.ieee]

/-- The first support: X · W1. -/
theorem v0_at (l : Fin 10000) (h : Fin 128) :
    Read.val_main_v0 (F := Ideal) x0 x2 (ix2 l h) = Gcn.mm (Gcn.mat x0) (Gcn.mat x2) l h := by
  rw [Read.val_main_v0_apply]
  refine Finset.sum_congr rfl fun k _ => ?_
  have e1 : Read.lidx_main_v0 (ix2 l h) k = ix2 l k := funext fun d => match d with | ⟨0, _⟩ => rfl | ⟨1, _⟩ => rfl
  have e2 : Read.ridx_main_v0 (ix2 l h) k = ix2 k h := funext fun d => match d with | ⟨0, _⟩ => rfl | ⟨1, _⟩ => rfl
  rw [e1, e2]; rfl

/-- A · (X · W1). -/
theorem v1_at (i : Fin 10000) (h : Fin 128) :
    Read.val_main_v1 (F := Ideal) x0 x1 x2 (ix2 i h) = Gcn.mm (Gcn.mat x1) (Gcn.mm (Gcn.mat x0) (Gcn.mat x2)) i h := by
  rw [Read.val_main_v1_apply]
  refine Finset.sum_congr rfl fun k _ => ?_
  have e1 : Read.lidx_main_v1 (ix2 i h) k = ix2 i k := funext fun d => match d with | ⟨0, _⟩ => rfl | ⟨1, _⟩ => rfl
  have e2 : Read.ridx_main_v1 (ix2 i h) k = ix2 k h := funext fun d => match d with | ⟨0, _⟩ => rfl | ⟨1, _⟩ => rfl
  rw [e1, e2, v0_at]; rfl

/-- The first bias, broadcast along the rows. -/
theorem v3_at (i : Fin 10000) (h : Fin 128) :
    Read.val_main_v3 (F := Ideal) x3 (ix2 i h) = Gcn.vec x3 h := by
  rw [Read.val_main_v3_apply, Read.val_main_v2_apply]
  exact congrArg x3 (funext fun d => match d with | ⟨0, _⟩ => rfl)

/-- The first layer before its activation. -/
theorem v4_at (i : Fin 10000) (h : Fin 128) :
    Read.val_main_v4 (F := Ideal) x0 x1 x2 x3 (ix2 i h)
      = Gcn.conv (Gcn.mat x1) (Gcn.mm (Gcn.mat x0) (Gcn.mat x2)) (Gcn.vec x3) i h := by
  rw [Read.val_main_v4_apply, v1_at, v3_at]; rfl

/-- The rectifier's zero, broadcast to the whole array. -/
theorem call0_at (i : S10000x128.Idx) : Read.val_main_call0_v0 (F := Ideal) i = 0 := by
  rw [Read.val_main_call0_v0_apply, Read.val_main_call0_cst_apply, Ideal.ofBits_def, Ideal.ofBits_zero_f32]

/-- The first layer's activations. -/
theorem v5_at (k : Fin 10000) (h : Fin 128) :
    Read.val_main_v5 (F := Ideal) x0 x1 x2 x3 (ix2 k h)
      = Gcn.hidden (Gcn.mat x1) (Gcn.mat x0) (Gcn.mat x2) (Gcn.vec x3) k h := by
  rw [Read.val_main_v5_apply, v4_at, call0_at]; rfl

/-- The second support: hidden · W2. -/
theorem v6_at (k : Fin 10000) (j : Fin 64) :
    Read.val_main_v6 (F := Ideal) x0 x1 x2 x3 x4 (ix2 k j)
      = Gcn.support2 (Gcn.mat x1) (Gcn.mat x0) (Gcn.mat x2) (Gcn.vec x3) (Gcn.mat x4) k j := by
  rw [Read.val_main_v6_apply]
  unfold Gcn.support2
  refine Finset.sum_congr rfl fun l _ => ?_
  have e1 : Read.lidx_main_v6 (ix2 k j) l = ix2 k l := funext fun d => match d with | ⟨0, _⟩ => rfl | ⟨1, _⟩ => rfl
  have e2 : Read.ridx_main_v6 (ix2 k j) l = ix2 l j := funext fun d => match d with | ⟨0, _⟩ => rfl | ⟨1, _⟩ => rfl
  rw [e1, e2, v5_at]; rfl

/-- A · support2. -/
theorem v7_at (i : Fin 10000) (j : Fin 64) :
    Read.val_main_v7 (F := Ideal) x0 x1 x2 x3 x4 (ix2 i j)
      = Gcn.mm (Gcn.mat x1) (Gcn.support2 (Gcn.mat x1) (Gcn.mat x0) (Gcn.mat x2) (Gcn.vec x3) (Gcn.mat x4)) i j := by
  rw [Read.val_main_v7_apply]
  refine Finset.sum_congr rfl fun k _ => ?_
  have e1 : Read.lidx_main_v7 (ix2 i j) k = ix2 i k := funext fun d => match d with | ⟨0, _⟩ => rfl | ⟨1, _⟩ => rfl
  have e2 : Read.ridx_main_v7 (ix2 i j) k = ix2 k j := funext fun d => match d with | ⟨0, _⟩ => rfl | ⟨1, _⟩ => rfl
  rw [e1, e2, v6_at]; rfl

/-- The second bias, broadcast along the rows. -/
theorem v9_at (i : Fin 10000) (j : Fin 64) :
    Read.val_main_v9 (F := Ideal) x5 (ix2 i j) = Gcn.vec x5 j := by
  rw [Read.val_main_v9_apply, Read.val_main_v8_apply]
  exact congrArg x5 (funext fun d => match d with | ⟨0, _⟩ => rfl)

/-- The logits: the second layer before the softmax, as a function of row and column. -/
abbrev logits : Fin 10000 → Fin 64 → EReal :=
  Gcn.conv (Gcn.mat x1) (Gcn.support2 (Gcn.mat x1) (Gcn.mat x0) (Gcn.mat x2) (Gcn.vec x3) (Gcn.mat x4)) (Gcn.vec x5)

theorem v10_at (i : Fin 10000) (j : Fin 64) :
    Read.val_main_v10 (F := Ideal) x0 x1 x2 x3 x4 x5 (ix2 i j) = logits x0 x1 x2 x3 x4 x5 i j := by
  rw [Read.val_main_v10_apply, v7_at, v9_at]; rfl

/-- A maximum-reduction over the columns, from minus infinity, is the row's maximum. -/
theorem reduce_max_at (y : S10000x64.Idx → EReal) (i : Fin 10000) :
    Host.reduce (FloatOps.maximumf (F := Ideal) (φ := .f32)) y (Read.val_main_cst (F := Ideal))
        reducesTo_S10000x64_S10000_d1 h_S_ (ix1 i)
      = Gcn.rowMax fun j => y (ix2 i j) := by
  have hR : S10000x64.Reduces [1] S10000 := by decide
  rw [Host.reduce_eq_fold_single _ y _ reducesTo_S10000x64_S10000_d1 hR h_S_ (ix1 i)]
  have hl : (y ∘ hR.lift (ix1 i)) = fun j : Fin 64 => y (ix2 i j) :=
    funext fun k => congrArg y (funext fun c => Fin.ext (by match c with | ⟨0, _⟩ => rfl | ⟨1, _⟩ => rfl))
  rw [hl, Read.val_main_cst_apply, Ideal.ofBits_def, ofBits_negInf]
  rfl

/-- The row maxima of the logits. -/
theorem v11_at (i : Fin 10000) :
    Read.val_main_v11 (F := Ideal) x0 x1 x2 x3 x4 x5 (ix1 i) = Gcn.rowMax (logits x0 x1 x2 x3 x4 x5 i) := by
  unfold Read.val_main_v11
  rw [reduce_max_at]
  exact congrArg Gcn.rowMax (funext fun j => v10_at x0 x1 x2 x3 x4 x5 i j)

theorem v12_at (i : S10000.Idx) : Read.val_main_v12 (F := Ideal) i = (⊥ : EReal) := by
  rw [Read.val_main_v12_apply, Read.val_main_cst_0_apply, Ideal.ofBits_def, ofBits_negInf]

/-- The maximum of the row's maximum with minus infinity is the row's maximum. -/
theorem v13_at (i : Fin 10000) :
    Read.val_main_v13 (F := Ideal) x0 x1 x2 x3 x4 x5 (ix1 i) = Gcn.rowMax (logits x0 x1 x2 x3 x4 x5 i) := by
  rw [Read.val_main_v13_apply, v12_at, v11_at, Ideal.maximumf_def]
  exact max_bot_left _

theorem v15_at (i : Fin 10000) (j : Fin 64) :
    Read.val_main_v15 (F := Ideal) x0 x1 x2 x3 x4 x5 (ix2 i j) = Gcn.rowMax (logits x0 x1 x2 x3 x4 x5 i) := by
  rw [Read.val_main_v15_apply, Read.val_main_v14_apply]
  have e : Read.idx_main_v14 (Read.idx_main_v15 (ix2 i j)) = ix1 i := funext fun d => match d with | ⟨0, _⟩ => rfl
  rw [e, v13_at]

/-- The exponential of the logit less its row's maximum. -/
theorem v17_at (i : Fin 10000) (j : Fin 64) :
    Read.val_main_v17 (F := Ideal) x0 x1 x2 x3 x4 x5 (ix2 i j)
      = Ideal.exp (logits x0 x1 x2 x3 x4 x5 i j - Gcn.rowMax (logits x0 x1 x2 x3 x4 x5 i)) := by
  rw [Read.val_main_v17_apply, Read.val_main_v16_apply, v10_at, v15_at]; rfl

/-- The row's sum of exponentials. -/
theorem v18_at (i : Fin 10000) :
    Read.val_main_v18 (F := Ideal) x0 x1 x2 x3 x4 x5 (ix1 i)
      = ∑ j' : Fin 64, Ideal.exp (logits x0 x1 x2 x3 x4 x5 i j' - Gcn.rowMax (logits x0 x1 x2 x3 x4 x5 i)) := by
  rw [Read.val_main_v18_apply, Read.val_main_cst_1_apply, Ideal.ofBits_def, Ideal.ofBits_zero_f32, zero_add]
  refine Finset.sum_congr rfl fun k _ => ?_
  have e : Read.idx_main_v18 (ix1 i) k = ix2 i k := funext fun d => match d with | ⟨0, _⟩ => rfl | ⟨1, _⟩ => rfl
  rw [e, v17_at]

theorem v20_at (i : Fin 10000) (j : Fin 64) :
    Read.val_main_v20 (F := Ideal) x0 x1 x2 x3 x4 x5 (ix2 i j)
      = ∑ j' : Fin 64, Ideal.exp (logits x0 x1 x2 x3 x4 x5 i j' - Gcn.rowMax (logits x0 x1 x2 x3 x4 x5 i)) := by
  rw [Read.val_main_v20_apply, Read.val_main_v19_apply]
  have e : Read.idx_main_v19 (Read.idx_main_v20 (ix2 i j)) = ix1 i := funext fun d => match d with | ⟨0, _⟩ => rfl
  rw [e, v18_at]

end

/-- The reference's result at row i and column j is the specification's output there. -/
theorem ref_apply (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (i : Fin 10000) (j : Fin 64) :
    Cert.ReferenceIdeal.Read.val_main_v21 (F := Ideal) x0 x1 x2 x3 x4 x5 (ix2 i j)
      = Gcn.out (Gcn.mat x1) (Gcn.mat x1) (Gcn.mat x0) (Gcn.mat x2) (Gcn.vec x3) (Gcn.mat x4) (Gcn.vec x5) i j := by
  rw [Read.val_main_v21_apply, v17_at, v20_at, Ideal.hostDivf_def]
  rfl

end Cert.ReferenceIdeal.RefValue

end
-- ==== Proof.lean ====
/-
  A Pallas kernel for a two-layer dense graph convolution against its jnp reference, over the extended reals.

  Both programs compute, from node features X, a dense adjacency matrix A, weights W1, W2 and biases b1, b2,
      out = softmax over each row of (A · (max (A · (X · W1) + b1, 0) · W2) + b2).
  The kernel is one pipelined call on a grid of 2 phases by 25 row stripes of A. The first point computes
  support1 = X · W1 into a scratch buffer; every point of phase 0 computes the 400 rows of
  support2 = max (A · support1 + b1, 0) · W2 of its stripe into a second scratch buffer; every point of phase 1
  computes the 400 rows of the output of its stripe from the stripe of A and the whole of support2, and writes
  them back. The reference computes the same expression on whole arrays. At the ideal instance every operation
  is the exact one, a matrix product is a plain sum of products in whatever order or tiling, and the reference's
  extra maximum with minus infinity before the exponential is the identity: the two results are one function of
  the arguments (Spec.lean states it; KPay.lean and KValue.lean read the kernel's side, RefValue.lean the
  reference's). No law used needs the inputs to be finite. The three frames: the kernel's two by running the body
  in each of its three control cases under an invariant on the two scratch buffers, the reference's from its run.
-/
import proofs.«105048_g55216099557796_cont_9to1c4b_742_5_alg».proof.Defs
import proofs.«105048_g55216099557796_cont_9to1c4b_742_5_alg».proof.Proof.Gen.Kernel
import proofs.«105048_g55216099557796_cont_9to1c4b_742_5_alg».proof.Proof.Gen.KernelIdeal
import proofs.«105048_g55216099557796_cont_9to1c4b_742_5_alg».proof.Proof.Gen.ReferenceIdeal
import proofs.«105048_g55216099557796_cont_9to1c4b_742_5_alg».proof.Proof.Gen.Pre_finite_inputs
import proofs.«105048_g55216099557796_cont_9to1c4b_742_5_alg».proof.Proof.Gen.ReferenceIdeal.Run
import proofs.«105048_g55216099557796_cont_9to1c4b_742_5_alg».proof.Proof.Gen.ReferenceIdeal.Read
import proofs.«105048_g55216099557796_cont_9to1c4b_742_5_alg».proof.Proof.FrameKernel.Run
import proofs.«105048_g55216099557796_cont_9to1c4b_742_5_alg».proof.Proof.FrameKernelIdeal.Run
import proofs.«105048_g55216099557796_cont_9to1c4b_742_5_alg».proof.Proof.KValue
import proofs.«105048_g55216099557796_cont_9to1c4b_742_5_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Frame.frame m ρ

/-- So does the idealized kernel. -/
theorem frame_kernelIdeal : Cert.frame_KernelIdeal := fun m ρ _ => Cert.KernelIdeal.Frame.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- At the ideal instance, from memories that agree on the arguments, the kernel's result array and the
    reference's are the same array: the network's output, index by index. -/
theorem algebraic : Cert.algebraic_KernelIdeal_ReferenceIdeal := by
  intro m ρ m' ρ' _ hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq]
  obtain ⟨h0, h1, h2, h3, h4, h5⟩ := hagree c
  rw [h0, h1, h2, h3, h4, h5]
  funext y
  obtain ⟨a, b, rfl⟩ : ∃ (a : Fin 10000) (b : Fin 64), y = ValueIdx.ix2 a b := ⟨y 0, y 1, ValueIdx.eq_ix2 y⟩
  rw [Cert.ReferenceIdeal.RefValue.ref_apply]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
